-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x1024 : Shape := ⟨3, ![32, 1024, 1024]⟩
abbrev S_ : Shape := ⟨0, ![]⟩

class Facts : Prop where
  bcast_S_S32x1024x1024 : S_.BroadcastsInDim S32x1024x1024 (![] : Fin 0 → Fin S32x1024x1024.rank)
  reducesTo_S32x1024x1024_S_d0_1_2 : S32x1024x1024.ReducesTo [0, 1, 2] S_
  h_S_ : 0 < S_.numel

variable [Facts]

def fn_part1 {F : FTy → Type} [FloatOps F] (main_v8 : IVec S_ 1) (main_v16 : IVec S32x1024x1024 1) : IVec S_ 1 :=
  let main_c_5 : IVec S_ 1 := constantI S_ 1 1#1
  let main_v17 : IVec S_ 1 := (fun x v => Host.reduce IntOp.andi x v reducesTo_S32x1024x1024_S_d0_1_2 h_S_) main_v16 main_c_5
  let main_v18 : IVec S_ 1 := andi main_v8 main_v17
  main_v18

def fn {F : FTy → Type} [FloatOps F] (main_arg0 : FVec F S32x1024x1024 .f32) (main_arg1 : FVec F S32x1024x1024 .f32) (main_arg2 : IVec S32x1024x1024 32) : IVec S_ 1 :=
  let main_v0 : FVec F S32x1024x1024 .f32 := Host.absf main_arg0
  let main_cst : FVec F S_ .f32 := constant S_ .f32 0x7F800000#32
  let main_v1 : FVec F S32x1024x1024 .f32 := broadcastInDim S32x1024x1024 ![] bcast_S_S32x1024x1024 main_cst
  let main_v2 : IVec S32x1024x1024 1 := cmpf .olt main_v0 main_v1
  let main_c : IVec S_ 1 := constantI S_ 1 1#1
  let main_v3 : IVec S_ 1 := (fun x v => Host.reduce IntOp.andi x v reducesTo_S32x1024x1024_S_d0_1_2 h_S_) main_v2 main_c
  let main_v4 : FVec F S32x1024x1024 .f32 := Host.absf main_arg1
  let main_cst_0 : FVec F S_ .f32 := constant S_ .f32 0x7F800000#32
  let main_v5 : FVec F S32x1024x1024 .f32 := broadcastInDim S32x1024x1024 ![] bcast_S_S32x1024x1024 main_cst_0
  let main_v6 : IVec S32x1024x1024 1 := cmpf .olt main_v4 main_v5
  let main_c_1 : IVec S_ 1 := constantI S_ 1 1#1
  let main_v7 : IVec S_ 1 := (fun x v => Host.reduce IntOp.andi x v reducesTo_S32x1024x1024_S_d0_1_2 h_S_) main_v6 main_c_1
  let main_v8 : IVec S_ 1 := andi main_v3 main_v7
  let main_c_2 : IVec S_ 32 := constantI S_ 32 4294966297#32
  let main_v9 : IVec S32x1024x1024 32 := broadcastInDim S32x1024x1024 ![] bcast_S_S32x1024x1024 main_c_2
  let main_v10 : IVec S32x1024x1024 1 := cmpi .eq main_arg2 main_v9
  let main_c_3 : IVec S_ 32 := constantI S_ 32 0#32
  let main_v11 : IVec S32x1024x1024 32 := broadcastInDim S32x1024x1024 ![] bcast_S_S32x1024x1024 main_c_3
  let main_v12 : IVec S32x1024x1024 1 := cmpi .sge main_arg2 main_v11
  let main_c_4 : IVec S_ 32 := constantI S_ 32 128#32
  let main_v13 : IVec S32x1024x1024 32 := broadcastInDim S32x1024x1024 ![] bcast_S_S32x1024x1024 main_c_4
  let main_v14 : IVec S32x1024x1024 1 := cmpi .slt main_arg2 main_v13
  let main_v15 : IVec S32x1024x1024 1 := andi main_v12 main_v14
  let main_v16 : IVec S32x1024x1024 1 := ori main_v10 main_v15
  fn_part1 (F := F) main_v8 main_v16
-- ==== Kernel.lean ====
abbrev S32x1024x1024 : Shape := ⟨3, ![32, 1024, 1024]⟩
abbrev S32x1x128 : Shape := ⟨3, ![32, 1, 128]⟩
abbrev S1x128x1024 : Shape := ⟨3, ![1, 128, 1024]⟩
abbrev S1x1x128 : Shape := ⟨3, ![1, 1, 128]⟩
abbrev S1x128 : Shape := ⟨2, ![1, 128]⟩
abbrev S1x128x128 : Shape := ⟨3, ![1, 128, 128]⟩
abbrev S128x128 : Shape := ⟨2, ![128, 128]⟩
abbrev S128x128x1 : Shape := ⟨3, ![128, 128, 1]⟩
abbrev S128x128x128 : Shape := ⟨3, ![128, 128, 128]⟩
abbrev S128x5x128 : Shape := ⟨3, ![128, 5, 128]⟩
abbrev S128x1x128 : Shape := ⟨3, ![128, 1, 128]⟩
abbrev S128x8x128 : Shape := ⟨3, ![128, 8, 128]⟩
abbrev S8x128 : Shape := ⟨2, ![8, 128]⟩
abbrev S32x128 : Shape := ⟨2, ![32, 128]⟩
abbrev S_ : Shape := ⟨0, ![]⟩

abbrev nBuf : Space → Nat
  | .hbm => 37
  | .vmem => 12
  | .smem => 0
  | _ => 0

abbrev bufTy : (tb : Table) → Fin (tcTables nBuf tb) → BufTy
  | .hbm, ⟨0, _⟩ => ⟨S32x1024x1024, .f32⟩
  | .hbm, ⟨1, _⟩ => ⟨S32x1024x1024, .f32⟩
  | .hbm, ⟨2, _⟩ => ⟨S32x1024x1024, .i32⟩
  | .hbm, ⟨3, _⟩ => ⟨S32x1x128, .f32⟩
  | .hbm, ⟨4, _⟩ => ⟨S32x1x128, .f32⟩
  | .hbm, ⟨5, _⟩ => ⟨S32x1x128, .f32⟩
  | .hbm, ⟨6, _⟩ => ⟨S32x128, .f32⟩
  | .hbm, ⟨7, _⟩ => ⟨S32x128, .f32⟩
  | .hbm, ⟨8, _⟩ => ⟨S32x128, .f32⟩
  | .hbm, ⟨9, _⟩ => ⟨S_, .f32⟩
  | .hbm, ⟨10, _⟩ => ⟨S32x128, .f32⟩
  | .hbm, ⟨11, _⟩ => ⟨S32x128, .i1⟩
  | .hbm, ⟨12, _⟩ => ⟨S_, .f32⟩
  | .hbm, ⟨13, _⟩ => ⟨S32x128, .f32⟩
  | .hbm, ⟨14, _⟩ => ⟨S32x128, .i1⟩
  | .hbm, ⟨15, _⟩ => ⟨S32x128, .i1⟩
  | .hbm, ⟨16, _⟩ => ⟨S_, .f32⟩
  | .hbm, ⟨17, _⟩ => ⟨S32x128, .f32⟩
  | .hbm, ⟨18, _⟩ => ⟨S32x128, .i1⟩
  | .hbm, ⟨19, _⟩ => ⟨S32x128, .i1⟩
  | .hbm, ⟨20, _⟩ => ⟨S32x128, .f32⟩
  | .hbm, ⟨21, _⟩ => ⟨S32x128, .f32⟩
  | .hbm, ⟨22, _⟩ => ⟨S_, .f32⟩
  | .hbm, ⟨23, _⟩ => ⟨S_, .f32⟩
  | .hbm, ⟨24, _⟩ => ⟨S32x128, .f32⟩
  | .hbm, ⟨25, _⟩ => ⟨S32x128, .f32⟩
  | .hbm, ⟨26, _⟩ => ⟨S32x128, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .local _ .vmem, ⟨0, _⟩ => ⟨S1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .i32⟩
  | .local _ .vmem, ⟨5, _⟩ => ⟨S1x128x1024, .i32⟩
  | .local _ .vmem, ⟨6, _⟩ => ⟨S1x1x128, .f32⟩
  | .local _ .vmem, ⟨7, _⟩ => ⟨S1x1x128, .f32⟩
  | .local _ .vmem, ⟨8, _⟩ => ⟨S1x1x128, .f32⟩
  | .local _ .vmem, ⟨9, _⟩ => ⟨S1x1x128, .f32⟩
  | .local _ .vmem, ⟨10, _⟩ => ⟨S1x1x128, .f32⟩
  | .local _ .vmem, ⟨11, _⟩ => ⟨S1x1x128, .f32⟩
  | _, _ => ⟨S32x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_cst_4 : Ref sig .tc := ⟨.hbm, 29, rfl⟩
abbrev main_v17 : Ref sig .tc := ⟨.hbm, 30, rfl⟩
abbrev main_cst_5 : Ref sig .tc := ⟨.hbm, 31, rfl⟩
abbrev main_v18 : Ref sig .tc := ⟨.hbm, 32, rfl⟩
abbrev main_v19 : Ref sig .tc := ⟨.hbm, 33, rfl⟩
abbrev main_cst_6 : Ref sig .tc := ⟨.hbm, 34, rfl⟩
abbrev main_v20 : Ref sig .tc := ⟨.hbm, 35, rfl⟩
abbrev main_v21 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 8], ![false, false]⟩

@[reducible] def k0_t1_loop : Scf.Loop 32 :=
  let c0_i32_1 : BitVec 32 := 0#32
  let c8_i32 : BitVec 32 := 8#32
  let v4 : BitVec 32 := Scalar.addi c0_i32_1 c8_i32
  let c1_i32 : BitVec 32 := 1#32
  ⟨c0_i32_1, v4, c1_i32⟩
def k0_mult1 (k0_t1 : Fin k0_t1_loop.trips) : BitVec 32 :=
  let c0_i32_4 : BitVec 32 := 0#32
  let c0_i32_1 : BitVec 32 := 0#32
  let c1_i32 : BitVec 32 := 1#32
  let arg8 : BitVec 32 := Scf.iv c0_i32_1 c1_i32 k0_t1
  let c1_i32_3 : BitVec 32 := 1#32
  let v5 : BitVec 32 := Scalar.muli arg8 c1_i32_3
  let v6 : BitVec 32 := Scalar.addi c0_i32_4 v5
  let c128_i32 : BitVec 32 := 128#32
  let v7 : BitVec 32 := Scalar.muli v6 c128_i32
  v7
def k0_off1 (k0_t1 : Fin k0_t1_loop.trips) : Fin 3 → Nat :=
  let c0 : Index := 0#32
  let c0_5 : Index := 0#32
  let c0_i32_4 : BitVec 32 := 0#32
  let c0_i32_1 : BitVec 32 := 0#32
  let c1_i32 : BitVec 32 := 1#32
  let arg8 : BitVec 32 := Scf.iv c0_i32_1 c1_i32 k0_t1
  let c1_i32_3 : BitVec 32 := 1#32
  let v5 : BitVec 32 := Scalar.muli arg8 c1_i32_3
  let v6 : BitVec 32 := Scalar.addi c0_i32_4 v5
  let c128_i32 : BitVec 32 := 128#32
  let v7 : BitVec 32 := Scalar.muli v6 c128_i32
  let v8 : BitVec 32 := v7
  let v9 : Index := Scalar.indexCast v8
  ![0, 0, v9.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  iota_S1x1x128_d2_w32 : S1x1x128.Iotas .tc 32 [2]
  h_S1x128x128 : 0 < S1x128x128.numel
  shapeCasts_S1x128x128_S128x128 : S1x128x128.ShapeCasts S128x128
  shapeCasts_S128x128_S128x128x1 : S128x128.ShapeCasts S128x128x1
  broadcasts_S128x128x1_S128x128x128 : S128x128x1.Broadcasts S128x128x128
  broadcasts_S1x1x128_S128x128x128 : S1x1x128.Broadcasts S128x128x128
  natLt_1_32 : 1 < 32
  bitsLt_bf16_f32 : FTy.bits .bf16 < FTy.bits .f32
  shapeCasts_S128x128_S128x1x128 : S128x128.ShapeCasts S128x1x128
  concatenates_S128x1x128_S128x1x128_S128x1x128_S128x5x128_S128x8x128_d1 : Shape.Concatenates [S128x1x128, S128x1x128, S128x1x128, S128x5x128] S128x8x128 1
  reduces_S128x8x128_S8x128 : S128x8x128.Reduces [0] S8x128
  slices_S8x128_o0_0_S1x128 : S8x128.Slices ![0, 0] S1x128
  slices_S8x128_o1_0_S1x128 : S8x128.Slices ![1, 0] S1x128
  slices_S8x128_o2_0_S1x128 : S8x128.Slices ![2, 0] S1x128
  shapeCasts_S32x1x128_S32x128 : S32x1x128.ShapeCasts S32x128
  bcast_S_S32x128 : S_.BroadcastsInDim S32x128 (![] : Fin 0 → Fin S32x128.rank)
  reducesTo_S32x128_S_d0_1 : S32x128.ReducesTo [0, 1] S_
  h_S_ : 0 < S_.numel
  dot_S128x8x128_S128x128x128_S128x8x128_2_1_1_2_0_0_wf : DotDims.WF S128x8x128 S128x128x128 S128x8x128 [2] [1] [1] [2] [0] [0]
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S1x128x128.size a ≤ S1x128x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x1024.size a ≤ S32x1024x1024.size a
  hwx0_0 : ∀ i : grid0.Coords, EltTy.bits .f32 = 32 ∨ (Rect.block (s := S32x1024x1024) S1x128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x1024.size a ≤ S32x1024x1024.size a
  hwx0_1 : ∀ i : grid0.Coords, EltTy.bits .f32 = 32 ∨ (Rect.block (s := S32x1024x1024) S1x128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x1024.size a ≤ S32x1024x1024.size a
  hwx0_2 : ∀ i : grid0.Coords, EltTy.bits .i32 = 32 ∨ (Rect.block (s := S32x1024x1024) S1x128x1024.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128.size a ≤ S32x1x128.size a
  hwx0_3 : ∀ i : grid0.Coords, EltTy.bits .f32 = 32 ∨ (Rect.block (s := S32x1x128) S1x1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x128.size a ≤ S32x1x128.size a
  hwx0_4 : ∀ i : grid0.Coords, EltTy.bits .f32 = 32 ∨ (Rect.block (s := S32x1x128) S1x1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x128.size a ≤ S32x1x128.size a
  hwx0_5 : ∀ i : grid0.Coords, EltTy.bits .f32 = 32 ∨ (Rect.block (s := S32x1x128) S1x1x128.size (cc0_transform_5 i) (hinb0_5 i)).WholeWords (EltTy.packing .f32)

variable [Facts₀]

def dot_S128x8x128_S128x128x128_S128x8x128_2_1_1_2_0_0 : DotDims S128x8x128 S128x128x128 S128x8x128 where
  lhsContracting := [2]
  rhsContracting := [1]
  lhsNonContracting := [1]
  rhsNonContracting := [2]
  lhsBatch := [0]
  rhsBatch := [0]
  wf := dot_S128x8x128_S128x128x128_S128x8x128_2_1_1_2_0_0_wf

abbrev win0_0 : Pipeline.Window sig grid0 :=
  Pipeline.Window.ofSpec (Memref.whole main_arg0) S1x128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x128x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x1x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x1x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_2) S1x1x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32x1024x1024 : Shape := ⟨3, ![32, 1024, 1024]⟩
abbrev S32x1048576 : Shape := ⟨2, ![32, 1048576]⟩
abbrev S_ : Shape := ⟨0, ![]⟩
abbrev S32 : Shape := ⟨1, ![32]⟩
abbrev S32x1 : Shape := ⟨2, ![32, 1]⟩
abbrev S33554432 : Shape := ⟨1, ![33554432]⟩
abbrev S4096 : Shape := ⟨1, ![4096]⟩
abbrev S33554432x1 : Shape := ⟨2, ![33554432, 1]⟩

abbrev nBuf : Space → Nat
  | .hbm => 73
  | .vmem => 0
  | .smem => 0
  | _ => 0

abbrev bufTy : (tb : Table) → Fin (tcTables nBuf tb) → BufTy
  | .hbm, ⟨0, _⟩ => ⟨S32x1024x1024, .f32⟩
  | .hbm, ⟨1, _⟩ => ⟨S32x1024x1024, .f32⟩
  | .hbm, ⟨2, _⟩ => ⟨S32x1024x1024, .i32⟩
  | .hbm, ⟨3, _⟩ => ⟨S32x1048576, .i32⟩
  | .hbm, ⟨4, _⟩ => ⟨S32x1048576, .f32⟩
  | .hbm, ⟨5, _⟩ => ⟨S32x1048576, .f32⟩
  | .hbm, ⟨6, _⟩ => ⟨S_, .i32⟩
  | .hbm, ⟨7, _⟩ => ⟨S32x1048576, .i32⟩
  | .hbm, ⟨8, _⟩ => ⟨S32x1048576, .i1⟩
  | .hbm, ⟨9, _⟩ => ⟨S_, .i32⟩
  | .hbm, ⟨10, _⟩ => ⟨S_, .i32⟩
  | .hbm, ⟨11, _⟩ => ⟨S32x1048576, .i32⟩
  | .hbm, ⟨12, _⟩ => ⟨S32x1048576, .i32⟩
  | .hbm, ⟨13, _⟩ => ⟨S32, .i32⟩
  | .hbm, ⟨14, _⟩ => ⟨S_, .i32⟩
  | .hbm, ⟨15, _⟩ => ⟨S32, .i32⟩
  | .hbm, ⟨16, _⟩ => ⟨S32, .i32⟩
  | .hbm, ⟨17, _⟩ => ⟨S32x1, .i32⟩
  | .hbm, ⟨18, _⟩ => ⟨S32x1048576, .i32⟩
  | .hbm, ⟨19, _⟩ => ⟨S32x1048576, .i32⟩
  | .hbm, ⟨20, _⟩ => ⟨S33554432, .i32⟩
  | .hbm, ⟨21, _⟩ => ⟨S_, .f32⟩
  | .hbm, ⟨22, _⟩ => ⟨S_, .f32⟩
  | .hbm, ⟨23, _⟩ => ⟨S32x1048576, .f32⟩
  | .hbm, ⟨24, _⟩ => ⟨S32x1048576, .f32⟩
  | .hbm, ⟨25, _⟩ => ⟨S33554432, .f32⟩
  | .hbm, ⟨26, _⟩ => ⟨S_, .f32⟩
  | .hbm, ⟨27, _⟩ => ⟨S4096, .f32⟩
  | .hbm, ⟨28, _⟩ => ⟨S33554432x1, .i32⟩
  | .hbm, ⟨29, _⟩ => ⟨S4096, .f32⟩
  | .hbm, ⟨30, _⟩ => ⟨S_, .f32⟩
  | .hbm, ⟨31, _⟩ => ⟨S_, .f32⟩
  | .hbm, ⟨32, _⟩ => ⟨S32x1048576, .f32⟩
  | .hbm, ⟨33, _⟩ => ⟨S32x1048576, .f32⟩
  | .hbm, ⟨34, _⟩ => ⟨S33554432, .f32⟩
  | .hbm, ⟨35, _⟩ => ⟨S_, .f32⟩
  | .hbm, ⟨36, _⟩ => ⟨S4096, .f32⟩
  | .hbm, ⟨37, _⟩ => ⟨S33554432x1, .i32⟩
  | .hbm, ⟨38, _⟩ => ⟨S4096, .f32⟩
  | .hbm, ⟨39, _⟩ => ⟨S32x1048576, .f32⟩
  | .hbm, ⟨40, _⟩ => ⟨S33554432, .f32⟩
  | .hbm, ⟨41, _⟩ => ⟨S_, .f32⟩
  | .hbm, ⟨42, _⟩ => ⟨S4096, .f32⟩
  | .hbm, ⟨43, _⟩ => ⟨S33554432x1, .i32⟩
  | .hbm, ⟨44, _⟩ => ⟨S4096, .f32⟩
  | .hbm, ⟨45, _⟩ => ⟨S_, .f32⟩
  | .hbm, ⟨46, _⟩ => ⟨S4096, .f32⟩
  | .hbm, ⟨47, _⟩ => ⟨S4096, .i1⟩
  | .hbm, ⟨48, _⟩ => ⟨S_, .f32⟩
  | .hbm, ⟨49, _⟩ => ⟨S4096, .f32⟩
  | .hbm, ⟨50, _⟩ => ⟨S4096, .i1⟩
  | .hbm, ⟨51, _⟩ => ⟨S4096, .i1⟩
  | .hbm, ⟨52, _⟩ => ⟨S_, .f32⟩
  | .hbm, ⟨53, _⟩ => ⟨S4096, .f32⟩
  | .hbm, ⟨54, _⟩ => ⟨S4096, .i1⟩
  | .hbm, ⟨55, _⟩ => ⟨S4096, .i1⟩
  | .hbm, ⟨56, _⟩ => ⟨S4096, .f32⟩
  | .hbm, ⟨57, _⟩ => ⟨S4096, .f32⟩
  | .hbm, ⟨58, _⟩ => ⟨S_, .f32⟩
  | .hbm, ⟨59, _⟩ => ⟨S_, .f32⟩
  | .hbm, ⟨60, _⟩ => ⟨S4096, .f32⟩
  | .hbm, ⟨61, _⟩ => ⟨S4096, .f32⟩
  | .hbm, ⟨62, _⟩ => ⟨S4096, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | _, _ => ⟨S32x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_call0_v0 : Ref sig .tc := ⟨.hbm, 10, rfl⟩
abbrev main_call0_v1 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_call1_v0 : Ref sig .tc := ⟨.hbm, 22, rfl⟩
abbrev main_call1_v1 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_call2_v0 : Ref sig .tc := ⟨.hbm, 31, rfl⟩
abbrev main_call2_v1 : Ref sig .tc := ⟨.hbm, 32, rfl⟩
abbrev main_v18 : Ref sig .tc := ⟨.hbm, 33, rfl⟩
abbrev main_v19 : Ref sig .tc := ⟨.hbm, 34, rfl⟩
abbrev main_cst_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_6 : Ref sig .tc := ⟨.hbm, 45, rfl⟩
abbrev main_v28 : Ref sig .tc := ⟨.hbm, 46, rfl⟩
abbrev main_v29 : Ref sig .tc := ⟨.hbm, 47, rfl⟩
abbrev main_cst_7 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_8 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_9 : Ref sig .tc := ⟨.hbm, 58, rfl⟩
abbrev main_call3_v0 : Ref sig .tc := ⟨.hbm, 59, rfl⟩
abbrev main_call3_v1 : Ref sig .tc := ⟨.hbm, 60, rfl⟩
abbrev main_v38 : Ref sig .tc := ⟨.hbm, 61, rfl⟩
abbrev main_v39 : Ref sig .tc := ⟨.hbm, 62, rfl⟩
abbrev main_cst_10 : Ref sig .tc := ⟨.hbm, 63, rfl⟩
abbrev main_v40 : Ref sig .tc := ⟨.hbm, 64, rfl⟩
abbrev main_cst_11 : Ref sig .tc := ⟨.hbm, 65, rfl⟩
abbrev main_v41 : Ref sig .tc := ⟨.hbm, 66, rfl⟩
abbrev main_cst_12 : Ref sig .tc := ⟨.hbm, 67, rfl⟩
abbrev main_v42 : Ref sig .tc := ⟨.hbm, 68, rfl⟩
abbrev main_v43 : Ref sig .tc := ⟨.hbm, 69, rfl⟩
abbrev main_cst_13 : Ref sig .tc := ⟨.hbm, 70, rfl⟩
abbrev main_v44 : Ref sig .tc := ⟨.hbm, 71, rfl⟩
abbrev main_v45 : Ref sig .tc := ⟨.hbm, 72, rfl⟩

abbrev nD : Nat := 1
abbrev τ : Topo := Topo.v7x

variable {F : FTy → Type} [FloatOps F]

class Facts₀ : Prop where
  shapeCasts_S32x1024x1024_S32x1048576 : S32x1024x1024.ShapeCasts S32x1048576
  bcast_S_S32x1048576 : S_.BroadcastsInDim S32x1048576 (![] : Fin 0 → Fin S32x1048576.rank)
  bcast_S_S32 : S_.BroadcastsInDim S32 (![] : Fin 0 → Fin S32.rank)
  bcast_S32_S32x1_0 : S32.BroadcastsInDim S32x1 (![0] : Fin 1 → Fin S32x1.rank)
  bcast_S32x1_S32x1048576_0_1 : S32x1.BroadcastsInDim S32x1048576 (![0, 1] : Fin 2 → Fin S32x1048576.rank)
  shapeCasts_S32x1048576_S33554432 : S32x1048576.ShapeCasts S33554432
  bcast_S_S4096 : S_.BroadcastsInDim S4096 (![] : Fin 0 → Fin S4096.rank)
  bcast_S33554432_S33554432x1_0 : S33554432.BroadcastsInDim S33554432x1 (![0] : Fin 1 → Fin S33554432x1.rank)
  reducesTo_S4096_S_d0 : S4096.ReducesTo [0] S_
  h_S_ : 0 < S_.numel
  scatter_S4096_S33554432x1_S33554432_n_0_0_1_wf : ScatterDims.WF S4096 S33554432x1 S33554432 [] [0] [0] 1

variable [Facts₀]

def scatter_S4096_S33554432x1_S33554432_n_0_0_1 : ScatterDims S4096 S33554432x1 S33554432 where
  updateWindowDims := []
  insertedWindowDims := [0]
  scatterDimsToOperandDims := [0]
  indexVectorDim := 1
  wf := scatter_S4096_S33554432x1_S33554432_n_0_0_1_wf

class Facts : Prop extends Facts₀ where

variable [Facts]
-- ==== Proof.Spec.lean ====
/-
  What both programs compute, stated once over the argument arrays.

  The inputs are three arrays over (row b < 32, line r < 1024, column q < 1024): predictions, targets and an integer
  plot id per pixel.  For a row b and a bin p < 128 the masked sum `seg f pid b p` adds f over the pixels of row b
  whose id is p.  Three such sums per (b, p) - of the predictions, of the targets and of the constant one (a count) -
  feed a tail that is the same arithmetic in both programs: a cell is kept when its count and its target sum are
  positive and the target sum is not the ignore value; kept cells contribute the squared difference of the two sums;
  the result is sqrt (sum of contributions / max (number of kept cells) 1 + eps).

  The range condition `InRange`: every id is the ignore value -999 or a bin number below 128.
-/
import Idealize.ShloMosaic.PureOps.Ideal
import Idealize.ShloMosaic.Lib.ValueIdx

noncomputable section

open scoped BigOperators

namespace Cert.Spec

open Idealize.ShloMosaic Idealize.ShloMosaic.ValueIdx

/-- The shape of the three argument arrays. -/
abbrev SA : Shape := ⟨3, ![32, 1024, 1024]⟩
/-- The scalar shape of the result. -/
abbrev S0 : Shape := ⟨0, ![]⟩

/-- The sum of `f` over the pixels of row `b` whose plot id is the bin `p`. -/
def seg (f : SA.Idx → EReal) (pid : IVec SA 32) (b : Fin 32) (p : Fin 128) : EReal :=
  ∑ r : Fin 1024, ∑ q : Fin 1024, if pid (ix3 b r q) = BitVec.ofNat 32 p.val then f (ix3 b r q) else 0

/-- Cell (b, p) in the flat numbering of the 32 x 128 cells. -/
def cell (b : Fin 32) (p : Fin 128) : (⟨1, ![4096]⟩ : Shape).Idx :=
  ix1 ⟨128 * b.val + p.val, by have := b.isLt; have := p.isLt; omega⟩

/-- Every plot id is the ignore value (-999 as a 32-bit word) or a bin number below 128. -/
def InRange (pid : IVec SA 32) : Prop :=
  ∀ i, pid i = 4294966297#32 ∨ ∃ p : Fin 128, pid i = BitVec.ofNat 32 p.val

/-- A cell is kept: count positive, target sum positive, target sum not the ignore value. -/
def keepBit (st cnt : EReal) : BitVec 1 :=
  IntOp.andi
    (IntOp.andi (FloatOps.cmpf (F := Ideal) (φ := .f32) .ogt cnt (Ideal.ofBits .f32 0x00000000#32))
      (FloatOps.cmpf (F := Ideal) (φ := .f32) .ogt st (Ideal.ofBits .f32 0x00000000#32)))
    (FloatOps.cmpf (F := Ideal) (φ := .f32) .une st (Ideal.ofBits .f32 0xC479C000#32))

/-- A kept cell's contribution: the squared difference of the prediction sum and the target sum; zero otherwise. -/
def sqCell (sp st cnt : EReal) : EReal :=
  Scalar.select (keepBit st cnt) ((sp - st) * (sp - st)) (Ideal.ofBits .f32 0x00000000#32)

/-- One for a kept cell, zero otherwise. -/
def keepCell (st cnt : EReal) : EReal := FloatOps.uitofp (F := Ideal) .f32 (keepBit st cnt)

/-- A host sum over all 32 x 128 cells, from the zero it starts at. -/
def total (g : Fin 32 → Fin 128 → EReal) : EReal :=
  Ideal.ofBits .f32 0x00000000#32 + ∑ b : Fin 32, ∑ p : Fin 128, g b p

/-- sqrt (S / max K 1 + eps), as the host operations spell it on scalars. -/
def finish (S K : EReal) : FVec Ideal S0 .f32 :=
  Host.sqrt (addf (Host.divf (fun _ => S) (maximumf (fun _ => K) (constant S0 .f32 0x3F800000#32)))
    (constant S0 .f32 0x358637BD#32))

/-- The result as a function of the three per-cell sums. -/
def result (SP ST CNT : Fin 32 → Fin 128 → EReal) : FVec Ideal S0 .f32 :=
  finish (total fun b p => sqCell (SP b p) (ST b p) (CNT b p)) (total fun b p => keepCell (ST b p) (CNT b p))

end Cert.Spec

end
-- ==== Proof.KDefs.lean ====
/-
  The kernel body's arithmetic, named.

  One grid point holds a block of 128 lines by 1024 columns of each input.  The body's loop walks the block in eight
  chunks of 128 columns; `chunk x k` is chunk k of a block as the body's load reads it.  For each chunk the body
  forms, per line i and column j, the indicator of "the id at (i, j) is bin p" for the 128 bins, multiplies the
  stacked rows (prediction, target, one, zeros) by it and sums over the columns and then over the lines: an 8 x 128
  table `acc` whose rows 0, 1, 2 are the chunk's contribution to the three per-bin sums.  `step3/4/5` add row 0 / 1 / 2
  of that table to an accumulator of 128 bins, and `sweep` does so for the eight chunks in order.
-/
import proofs.«403720_j39273180954721_3_alg».proof.Proof.Gen.KernelIdeal.Frame

noncomputable section

namespace Cert.KernelIdeal.Hand

open Idealize.ShloMosaic Cert.KernelIdeal Cert.KernelIdeal.Gen

variable {F : FTy → Type} [FloatOps F]

/-- Chunk `k` (columns 128 k … 128 k + 127) of a staged block, as the body's load reads it. -/
def chunk {e : EltTy} (x : Vec F S1x128x1024 e) (k : Fin k0_t1_loop.trips) : Vec F S1x128x128 e :=
  View.ld x (Rect.unit (s := S1x128x1024) (k0_off1 k) S1x128x128.size (k0_off1_inb k))

/-- Column `j` of chunk `k` as a column of the block. -/
def col (k : Fin k0_t1_loop.trips) (j : Fin 128) : Fin 1024 :=
  ⟨128 * k.val + j.val, by have := k.isLt; have := (k0_t1_abs).2.1; have := j.isLt; omega⟩

/-- The bin numbers 0 … 127 along the last axis. -/
def bins : IVec S1x1x128 32 := iota .tc S1x1x128 32 [2] iota_S1x1x128_d2_w32

/-- Chunk `k`'s 8 x 128 table of masked sums. -/
def acc (x0 x1 : Vec F S1x128x1024 .f32) (x2 : Vec F S1x128x1024 .i32) (k : Fin k0_t1_loop.trips) : FVec F S8x128 .f32 :=
  k0_pay6 bins (chunk x2 k) (chunk x0 k) (chunk x1 k)

/-- The prediction accumulator after chunk `k`: what it held plus row 0 of the chunk's table. -/
def step3 (x0 x1 : Vec F S1x128x1024 .f32) (x2 : Vec F S1x128x1024 .i32) (k : Fin k0_t1_loop.trips)
    (a : Vec F S1x1x128 .f32) : Vec F S1x1x128 .f32 :=
  k0_pay7 bins (chunk x2 k) (chunk x0 k) (chunk x1 k) a

/-- The target accumulator after chunk `k`: what it held plus row 1 of the chunk's table. -/
def step4 (x0 x1 : Vec F S1x128x1024 .f32) (x2 : Vec F S1x128x1024 .i32) (k : Fin k0_t1_loop.trips)
    (a : Vec F S1x1x128 .f32) : Vec F S1x1x128 .f32 :=
  k0_pay4 (acc x0 x1 x2 k) a

/-- The count accumulator after chunk `k`: what it held plus row 2 of the chunk's table. -/
def step5 (x0 x1 : Vec F S1x128x1024 .f32) (x2 : Vec F S1x128x1024 .i32) (k : Fin k0_t1_loop.trips)
    (a : Vec F S1x1x128 .f32) : Vec F S1x1x128 .f32 :=
  k0_pay5 (acc x0 x1 x2 k) a

/-- An accumulator after the first `n` chunks, from `a`. -/
def sweepN {V : Type} (step : Fin k0_t1_loop.trips → V → V) (a : V) : ℕ → V
  | 0 => a
  | n + 1 => if h : n < k0_t1_loop.trips then step ⟨n, h⟩ (sweepN step a n) else sweepN step a n

/-- An accumulator after all the chunks, from `a`. -/
def sweep {V : Type} (step : Fin k0_t1_loop.trips → V → V) (a : V) : V := sweepN step a k0_t1_loop.trips

end Cert.KernelIdeal.Hand

end
-- ==== Proof.KBody.lean ====
/- What the body leaves in each output's staging block, in closed form: from zero (a row's first point) or from what the
   point before left (its later points), the eight chunks' rows added in order. -/
import proofs.«403720_j39273180954721_3_alg».proof.Proof.KDefs
import Idealize.ShloMosaic.Lib.Pipeline.Value

set_option maxRecDepth 16384

noncomputable section

open scoped BigOperators

namespace Cert.KernelIdeal.Hand

open Idealize.ShloMosaic Idealize.ShloMosaic.Tactic Cert.KernelIdeal Cert.KernelIdeal.Gen

variable {F : FTy → Type} [FloatOps F]

/-- The three zeros a whole-block rectangle of the accumulators starts at. -/
theorem body_hz : (![0, 0, 0] : Fin 3 → ℕ) = fun _ => 0 := funext fun a => by fin_cases a <;> rfl

/-- A buffer whose newest store went through the whole-block rectangle reads back that store's payload, whatever it held
    and whatever was stored before. -/
theorem body_read_cons_whole (v : View sig .tc .vmem S1x1x128 .f32) (f : v.ty.Contents (Elt F))
    (w : S1x1x128.Idx → Elt F .f32) (L : List (View.Piece (Elt F) S1x1x128 .f32)) :
    v.read (Elt F) (v.writes (Elt F) f (⟨Rect.unit (s := S1x1x128) ![0, 0, 0] S1x1x128.size inb_S1x1x128_S1x1x128_0_0_0, w⟩ :: L)) = w := by
  rw [View.read_writes_eq_canon _ _ _ (fun y => ⟨_, List.mem_cons_self, View.mem_set_unit_zero body_hz inb_S1x1x128_S1x1x128_0_0_0 y⟩),
    View.canon_cons_unit_zero body_hz]

/-- ONE TRIP: over input blocks `x0 x1 x2` and accumulators holding `f5 f6 f7`, trip `k` stores once into each
    accumulator, through its whole block: what it held plus row 0 / 1 / 2 of chunk `k`'s table. -/
theorem body_tripL_eq (𝒱 : Variants) (c : Dev nD) (bd : Option 𝒱.V) (i : grid0.Coords) (arg2 : Memref sig .tc .vmem S1x128x1024 .f32) (harg2 : arg2.IsWhole) (arg3 : Memref sig .tc .vmem S1x128x1024 .f32) (harg3 : arg3.IsWhole) (arg4 : Memref sig .tc .vmem S1x128x1024 .i32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (x0 : Vec F S1x128x1024 .f32) (x1 : Vec F S1x128x1024 .f32) (x2 : Vec F S1x128x1024 .i32) (k : Fin k0_t1_loop.trips)
    (f5 : BufTy.Contents (Elt F) arg5.view.ty) (f6 : BufTy.Contents (Elt F) arg6.view.ty) (f7 : BufTy.Contents (Elt F) arg7.view.ty) :
    tripL_k0_t1 (F := F) 𝒱 c bd i arg2 harg2 arg3 harg3 arg4 harg4 arg5 harg5 arg6 harg6 arg7 harg7 bins (harg2.unread x0) (harg3.unread x1) (harg4.unread x2) k f5 f6 f7
      = ([⟨Rect.unit (s := S1x1x128) ![0, 0, 0] S1x1x128.size inb_S1x1x128_S1x1x128_0_0_0, step3 x0 x1 x2 k (arg5.view.read (Elt F) f5)⟩],
         [⟨Rect.unit (s := S1x1x128) ![0, 0, 0] S1x1x128.size inb_S1x1x128_S1x1x128_0_0_0, step4 x0 x1 x2 k (arg6.view.read (Elt F) f6)⟩],
         [⟨Rect.unit (s := S1x1x128) ![0, 0, 0] S1x1x128.size inb_S1x1x128_S1x1x128_0_0_0, step5 x0 x1 x2 k (arg7.view.read (Elt F) f7)⟩]) := by
  unfold tripL_k0_t1 trip_k0_t1
  dsimp only
  sl_unfold_run_names
  unfold step3 step4 step5 acc chunk
  simp only [View.readAt_eq_ld, harg2.read_unread, harg3.read_unread, harg4.read_unread, View.ld_unit_zero (S := S1x1x128) body_hz]

/-- One more chunk of a sweep. -/
theorem body_sweepN_succ {V : Type} (step : Fin k0_t1_loop.trips → V → V) (a : V) (k : Fin k0_t1_loop.trips) :
    sweepN step a (k.val + 1) = step k (sweepN step a k.val) := by
  rw [sweepN]; exact dif_pos k.isLt

/-- THE TRIPS BEFORE `n`: from accumulators holding `G5 G6 G7`, after the first `n` trips each accumulator reads as its
    sweep over the first `n` chunks from what it held. By induction on `n`: trip `n`'s one store per accumulator is the
    newest, and its payload is the step of what the earlier trips left. -/
theorem body_pb_read (𝒱 : Variants) (c : Dev nD) (bd : Option 𝒱.V) (i : grid0.Coords) (arg2 : Memref sig .tc .vmem S1x128x1024 .f32) (harg2 : arg2.IsWhole) (arg3 : Memref sig .tc .vmem S1x128x1024 .f32) (harg3 : arg3.IsWhole) (arg4 : Memref sig .tc .vmem S1x128x1024 .i32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (x0 : Vec F S1x128x1024 .f32) (x1 : Vec F S1x128x1024 .f32) (x2 : Vec F S1x128x1024 .i32)
    (G5 : BufTy.Contents (Elt F) arg5.view.ty) (G6 : BufTy.Contents (Elt F) arg6.view.ty) (G7 : BufTy.Contents (Elt F) arg7.view.ty) :
    ∀ n : ℕ, n ≤ k0_t1_loop.trips →
      arg5.view.read (Elt F) (arg5.view.writes (Elt F) G5 (pb_k0_t1 (F := F) 𝒱 c bd i arg2 harg2 arg3 harg3 arg4 harg4 arg5 harg5 arg6 harg6 arg7 harg7 bins (harg2.unread x0) (harg3.unread x1) (harg4.unread x2) G5 G6 G7 n).1)
          = sweepN (step3 x0 x1 x2) (arg5.view.read (Elt F) G5) n
      ∧ arg6.view.read (Elt F) (arg6.view.writes (Elt F) G6 (pb_k0_t1 (F := F) 𝒱 c bd i arg2 harg2 arg3 harg3 arg4 harg4 arg5 harg5 arg6 harg6 arg7 harg7 bins (harg2.unread x0) (harg3.unread x1) (harg4.unread x2) G5 G6 G7 n).2.1)
          = sweepN (step4 x0 x1 x2) (arg6.view.read (Elt F) G6) n
      ∧ arg7.view.read (Elt F) (arg7.view.writes (Elt F) G7 (pb_k0_t1 (F := F) 𝒱 c bd i arg2 harg2 arg3 harg3 arg4 harg4 arg5 harg5 arg6 harg6 arg7 harg7 bins (harg2.unread x0) (harg3.unread x1) (harg4.unread x2) G5 G6 G7 n).2.2)
          = sweepN (step5 x0 x1 x2) (arg7.view.read (Elt F) G7) n := by
  intro n
  induction n with
  | zero => intro _; exact ⟨rfl, rfl, rfl⟩
  | succ n ih =>
    intro hn
    have h : n < k0_t1_loop.trips := hn
    obtain ⟨i5, i6, i7⟩ := ih (Nat.le_of_lt h)
    have e := pb_k0_t1_succ (F := F) 𝒱 c bd i arg2 harg2 arg3 harg3 arg4 harg4 arg5 harg5 arg6 harg6 arg7 harg7 bins (harg2.unread x0) (harg3.unread x1) (harg4.unread x2) G5 G6 G7 ⟨n, h⟩
    rw [body_tripL_eq] at e
    dsimp only at e
    rw [e]
    dsimp only
    rw [List.singleton_append, List.singleton_append, List.singleton_append,
      body_read_cons_whole, body_read_cons_whole, body_read_cons_whole, i5, i6, i7]
    exact ⟨(body_sweepN_succ _ _ ⟨n, h⟩).symm, (body_sweepN_succ _ _ ⟨n, h⟩).symm, (body_sweepN_succ _ _ ⟨n, h⟩).symm⟩

theorem out0_A_3_eq (c : Dev nD) (i : grid0.Coords) (arg2 : Memref sig .tc .vmem S1x128x1024 .f32) (harg2 : arg2.IsWhole) (arg3 : Memref sig .tc .vmem S1x128x1024 .f32) (harg3 : arg3.IsWhole) (arg4 : Memref sig .tc .vmem S1x128x1024 .i32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (hc0 : cond0_0 i) (x0 : Vec F S1x128x1024 .f32) (x1 : Vec F S1x128x1024 .f32) (x2 : Vec F S1x128x1024 .i32) :
    out0_A_3 c i arg2 harg2 arg3 harg3 arg4 harg4 arg5 harg5 arg6 harg6 arg7 harg7 hc0 x0 x1 x2 = sweep (step3 x0 x1 x2) (k0_pay1 (F := F)) := by
  unfold out0_A_3
  refine (View.read_writes_of_cover VO0_3 VO0_3.junk arg5.view arg5.view.junk _
    (cover0_A_3 c i arg2 harg2 arg3 harg3 arg4 harg4 arg5 harg5 arg6 harg6 arg7 harg7 hc0 x0 x1 x2)).trans ?_
  unfold kernelRun0_A
  dsimp only
  sl_unfold_run_names
  rw [View.writes_append]
  refine ((body_pb_read Variants.none c none i arg2 harg2 arg3 harg3 arg4 harg4 arg5 harg5 arg6 harg6 arg7 harg7 x0 x1 x2 _ _ _ _ (le_refl _)).1).trans ?_
  rw [body_read_cons_whole]
  rfl

theorem out0_A_4_eq (c : Dev nD) (i : grid0.Coords) (arg2 : Memref sig .tc .vmem S1x128x1024 .f32) (harg2 : arg2.IsWhole) (arg3 : Memref sig .tc .vmem S1x128x1024 .f32) (harg3 : arg3.IsWhole) (arg4 : Memref sig .tc .vmem S1x128x1024 .i32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (hc0 : cond0_0 i) (x0 : Vec F S1x128x1024 .f32) (x1 : Vec F S1x128x1024 .f32) (x2 : Vec F S1x128x1024 .i32) :
    out0_A_4 c i arg2 harg2 arg3 harg3 arg4 harg4 arg5 harg5 arg6 harg6 arg7 harg7 hc0 x0 x1 x2 = sweep (step4 x0 x1 x2) (k0_pay2 (F := F)) := by
  unfold out0_A_4
  refine (View.read_writes_of_cover VO0_4 VO0_4.junk arg6.view arg6.view.junk _
    (cover0_A_4 c i arg2 harg2 arg3 harg3 arg4 harg4 arg5 harg5 arg6 harg6 arg7 harg7 hc0 x0 x1 x2)).trans ?_
  unfold kernelRun0_A
  dsimp only
  sl_unfold_run_names
  rw [View.writes_append]
  refine ((body_pb_read Variants.none c none i arg2 harg2 arg3 harg3 arg4 harg4 arg5 harg5 arg6 harg6 arg7 harg7 x0 x1 x2 _ _ _ _ (le_refl _)).2.1).trans ?_
  rw [body_read_cons_whole]
  rfl

theorem out0_A_5_eq (c : Dev nD) (i : grid0.Coords) (arg2 : Memref sig .tc .vmem S1x128x1024 .f32) (harg2 : arg2.IsWhole) (arg3 : Memref sig .tc .vmem S1x128x1024 .f32) (harg3 : arg3.IsWhole) (arg4 : Memref sig .tc .vmem S1x128x1024 .i32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (hc0 : cond0_0 i) (x0 : Vec F S1x128x1024 .f32) (x1 : Vec F S1x128x1024 .f32) (x2 : Vec F S1x128x1024 .i32) :
    out0_A_5 c i arg2 harg2 arg3 harg3 arg4 harg4 arg5 harg5 arg6 harg6 arg7 harg7 hc0 x0 x1 x2 = sweep (step5 x0 x1 x2) (k0_pay3 (F := F)) := by
  unfold out0_A_5
  refine (View.read_writes_of_cover VO0_5 VO0_5.junk arg7.view arg7.view.junk _
    (cover0_A_5 c i arg2 harg2 arg3 harg3 arg4 harg4 arg5 harg5 arg6 harg6 arg7 harg7 hc0 x0 x1 x2)).trans ?_
  unfold kernelRun0_A
  dsimp only
  sl_unfold_run_names
  rw [View.writes_append]
  refine ((body_pb_read Variants.none c none i arg2 harg2 arg3 harg3 arg4 harg4 arg5 harg5 arg6 harg6 arg7 harg7 x0 x1 x2 _ _ _ _ (le_refl _)).2.2).trans ?_
  rw [body_read_cons_whole]
  rfl

theorem out0_B_3_eq (c : Dev nD) (i : grid0.Coords) (arg2 : Memref sig .tc .vmem S1x128x1024 .f32) (harg2 : arg2.IsWhole) (arg3 : Memref sig .tc .vmem S1x128x1024 .f32) (harg3 : arg3.IsWhole) (arg4 : Memref sig .tc .vmem S1x128x1024 .i32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (hc0 : ¬cond0_0 i) (x0 : Vec F S1x128x1024 .f32) (x1 : Vec F S1x128x1024 .f32) (x2 : Vec F S1x128x1024 .i32) (xo3 : Vec F S1x1x128 .f32) (xo4 : Vec F S1x1x128 .f32) (xo5 : Vec F S1x1x128 .f32) :
    out0_B_3 c i arg2 harg2 arg3 harg3 arg4 harg4 arg5 harg5 arg6 harg6 arg7 harg7 hc0 x0 x1 x2 xo3 xo4 xo5 = sweep (step3 x0 x1 x2) xo3 := by
  unfold out0_B_3
  refine (View.read_writes_of_cover VO0_3 VO0_3.junk arg5.view (harg5.unread xo3) _
    (cover0_B_3 c i arg2 harg2 arg3 harg3 arg4 harg4 arg5 harg5 arg6 harg6 arg7 harg7 hc0 x0 x1 x2 xo3 xo4 xo5)).trans ?_
  unfold kernelRun0_B
  dsimp only
  sl_unfold_run_names
  refine ((body_pb_read Variants.none c none i arg2 harg2 arg3 harg3 arg4 harg4 arg5 harg5 arg6 harg6 arg7 harg7 x0 x1 x2 _ _ _ _ (le_refl _)).1).trans ?_
  rw [harg5.read_unread]
  rfl

theorem out0_B_4_eq (c : Dev nD) (i : grid0.Coords) (arg2 : Memref sig .tc .vmem S1x128x1024 .f32) (harg2 : arg2.IsWhole) (arg3 : Memref sig .tc .vmem S1x128x1024 .f32) (harg3 : arg3.IsWhole) (arg4 : Memref sig .tc .vmem S1x128x1024 .i32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (hc0 : ¬cond0_0 i) (x0 : Vec F S1x128x1024 .f32) (x1 : Vec F S1x128x1024 .f32) (x2 : Vec F S1x128x1024 .i32) (xo3 : Vec F S1x1x128 .f32) (xo4 : Vec F S1x1x128 .f32) (xo5 : Vec F S1x1x128 .f32) :
    out0_B_4 c i arg2 harg2 arg3 harg3 arg4 harg4 arg5 harg5 arg6 harg6 arg7 harg7 hc0 x0 x1 x2 xo3 xo4 xo5 = sweep (step4 x0 x1 x2) xo4 := by
  unfold out0_B_4
  refine (View.read_writes_of_cover VO0_4 VO0_4.junk arg6.view (harg6.unread xo4) _
    (cover0_B_4 c i arg2 harg2 arg3 harg3 arg4 harg4 arg5 harg5 arg6 harg6 arg7 harg7 hc0 x0 x1 x2 xo3 xo4 xo5)).trans ?_
  unfold kernelRun0_B
  dsimp only
  sl_unfold_run_names
  refine ((body_pb_read Variants.none c none i arg2 harg2 arg3 harg3 arg4 harg4 arg5 harg5 arg6 harg6 arg7 harg7 x0 x1 x2 _ _ _ _ (le_refl _)).2.1).trans ?_
  rw [harg6.read_unread]
  rfl

theorem out0_B_5_eq (c : Dev nD) (i : grid0.Coords) (arg2 : Memref sig .tc .vmem S1x128x1024 .f32) (harg2 : arg2.IsWhole) (arg3 : Memref sig .tc .vmem S1x128x1024 .f32) (harg3 : arg3.IsWhole) (arg4 : Memref sig .tc .vmem S1x128x1024 .i32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (hc0 : ¬cond0_0 i) (x0 : Vec F S1x128x1024 .f32) (x1 : Vec F S1x128x1024 .f32) (x2 : Vec F S1x128x1024 .i32) (xo3 : Vec F S1x1x128 .f32) (xo4 : Vec F S1x1x128 .f32) (xo5 : Vec F S1x1x128 .f32) :
    out0_B_5 c i arg2 harg2 arg3 harg3 arg4 harg4 arg5 harg5 arg6 harg6 arg7 harg7 hc0 x0 x1 x2 xo3 xo4 xo5 = sweep (step5 x0 x1 x2) xo5 := by
  unfold out0_B_5
  refine (View.read_writes_of_cover VO0_5 VO0_5.junk arg7.view (harg7.unread xo5) _
    (cover0_B_5 c i arg2 harg2 arg3 harg3 arg4 harg4 arg5 harg5 arg6 harg6 arg7 harg7 hc0 x0 x1 x2 xo3 xo4 xo5)).trans ?_
  unfold kernelRun0_B
  dsimp only
  sl_unfold_run_names
  refine ((body_pb_read Variants.none c none i arg2 harg2 arg3 harg3 arg4 harg4 arg5 harg5 arg6 harg6 arg7 harg7 x0 x1 x2 _ _ _ _ (le_refl _)).2.2).trans ?_
  rw [harg7.read_unread]
  rfl

end Cert.KernelIdeal.Hand

end
-- ==== Proof.KPay.lean ====
/- One chunk's update of an accumulator, read at a bin, over the extended reals: what it held plus the sum over the
   chunk's lines and columns of the entries whose id is the bin. -/
import proofs.«403720_j39273180954721_3_alg».proof.Proof.KDefs
import Idealize.ShloMosaic.Lib.ValueIdx
import Idealize.ShloMosaic.Lib.Pipeline.Value
import Idealize.ShloMosaic.PureOps.Ideal.Laws

noncomputable section

open scoped BigOperators

namespace Cert.KernelIdeal.Hand

open Idealize.ShloMosaic Idealize.ShloMosaic.ValueIdx Cert.KernelIdeal Cert.KernelIdeal.Gen

/-- A chunk read at (0, i, j) is the block at (0, i, 128 k + j). -/
theorem kp_chunk_apply {e : EltTy} (x : Vec Ideal S1x128x1024 e) (k : Fin k0_t1_loop.trips) (i j : Fin 128) :
    chunk x k (ix3 (0 : Fin 1) i j) = x (ix3 (0 : Fin 1) i (col k j)) := by
  unfold chunk
  show x _ = x _
  congr 1
  funext a
  apply Fin.ext
  rw [LoadRect.idx_apply]
  simp only [Rect.off_unit, Rect.stride_unit, k0_off1_eq]
  match a with
  | ⟨0, _⟩ => rfl
  | ⟨1, _⟩ => show 0 + 1 * i.val = i.val; omega
  | ⟨2, _⟩ => show 128 * k.val + 1 * j.val = 128 * k.val + j.val; omega

/-- The bin word at (0, 0, p) is p. -/
theorem kp_bins_apply (p : Fin 128) : bins (ix3 (0 : Fin 1) (0 : Fin 1) p) = BitVec.ofNat 32 p.val := by
  unfold bins
  rw [iota_single_apply]

/-- The indicator operand: at (i, j, p), one when the id at (0, i, j) is the bin word at (0, 0, p), else zero. -/
def kp_onehot (v3 : IVec S1x1x128 32) (v10 : Vec Ideal S1x128x128 .i32) : FVec Ideal S128x128x128 .bf16 :=
  truncf .bf16 (sitofp .f32 (extui 32 (cmpi .eq
    (broadcastTo S128x128x128 (shapeCast S128x128x1 (shapeCast S128x128 v10 shapeCasts_S1x128x128_S128x128 : IVec S128x128 32) shapeCasts_S128x128_S128x128x1) broadcasts_S128x128x1_S128x128x128)
    (broadcastTo S128x128x128 v3 broadcasts_S1x1x128_S128x128x128)) natLt_1_32)) bitsLt_bf16_f32

/-- The stacked rows: per line, row 0 the predictions, row 1 the targets, row 2 ones, rows 3 to 7 zeros. -/
def kp_table (v13 v16 : Vec Ideal S1x128x128 .f32) : FVec Ideal S128x8x128 .bf16 :=
  concatenate S128x8x128 1
    [⟨S128x1x128, shapeCast S128x1x128 (truncf .bf16 (shapeCast S128x128 v13 shapeCasts_S1x128x128_S128x128 : FVec Ideal S128x128 .f32) bitsLt_bf16_f32 : FVec Ideal S128x128 .bf16) shapeCasts_S128x128_S128x1x128⟩,
     ⟨S128x1x128, shapeCast S128x1x128 (truncf .bf16 (shapeCast S128x128 v16 shapeCasts_S1x128x128_S128x128 : FVec Ideal S128x128 .f32) bitsLt_bf16_f32 : FVec Ideal S128x128 .bf16) shapeCasts_S128x128_S128x1x128⟩,
     ⟨S128x1x128, shapeCast S128x1x128 (broadcast S128x128 (Scalar.ofBits (F := Ideal) .bf16 0x3F80#16)) shapeCasts_S128x128_S128x1x128⟩,
     ⟨S128x5x128, broadcast S128x5x128 (Scalar.ofBits (F := Ideal) .bf16 0x0000#16)⟩]
    concatenates_S128x1x128_S128x1x128_S128x1x128_S128x5x128_S128x8x128_d1

/-- The table of masked sums is the sum over the lines of the batched product of the stacked rows with the indicator. -/
theorem kp_pay6_eq (v3 : IVec S1x1x128 32) (v10 : Vec Ideal S1x128x128 .i32) (v13 v16 : Vec Ideal S1x128x128 .f32) :
    k0_pay6 (F := Ideal) v3 v10 v13 v16
      = multiReduction (F := Ideal) .add [0] S8x128
          (matmul dot_S128x8x128_S128x128x128_S128x8x128_2_1_1_2_0_0 none (kp_table v13 v16) (kp_onehot v3 v10)
            (constant (F := Ideal) S128x8x128 .f32 0x00000000#32))
          0x00000000#32 reduces_S128x8x128_S8x128 (.inl rfl) rfl := rfl

/-- The batched product's dimension numbers: batch axis 0 on both sides, the left's axis 2 contracted with the right's axis 1. -/
abbrev kp_dot := dot_S128x8x128_S128x128x128_S128x8x128_2_1_1_2_0_0

/-- The left operand's index at result index j and contraction index k: j's line, j's row, k's column; the right
    operand's: j's line, k's column, j's bin. One lemma per axis. -/
theorem kp_lhs_0 (j : S128x8x128.Idx) (k : kp_dot.contr.Idx) :
    (dot_S128x8x128_S128x128x128_S128x8x128_2_1_1_2_0_0.lhsIdx j k 0).val = (j 0).val := by
  unfold DotDims.lhsIdx
  rw [dif_pos (show (0 : Fin S128x8x128.rank) ∈ dot_S128x8x128_S128x128x128_S128x8x128_2_1_1_2_0_0.lhsBatch by decide)]
  rfl

theorem kp_lhs_1 (j : S128x8x128.Idx) (k : kp_dot.contr.Idx) :
    (dot_S128x8x128_S128x128x128_S128x8x128_2_1_1_2_0_0.lhsIdx j k 1).val = (j 1).val := by
  unfold DotDims.lhsIdx
  rw [dif_neg (show ¬(1 : Fin S128x8x128.rank) ∈ dot_S128x8x128_S128x128x128_S128x8x128_2_1_1_2_0_0.lhsBatch by decide),
    dif_pos (show (1 : Fin S128x8x128.rank) ∈ dot_S128x8x128_S128x128x128_S128x8x128_2_1_1_2_0_0.lhsNonContracting by decide)]
  rfl

theorem kp_lhs_2 (j : S128x8x128.Idx) (k : kp_dot.contr.Idx) :
    (dot_S128x8x128_S128x128x128_S128x8x128_2_1_1_2_0_0.lhsIdx j k 2).val = (k ⟨0, by decide⟩).val :=
  DotDims.lhsIdx_val_of_single _ (cl := 2) rfl j k

theorem kp_rhs_0 (j : S128x8x128.Idx) (k : kp_dot.contr.Idx) :
    (dot_S128x8x128_S128x128x128_S128x8x128_2_1_1_2_0_0.rhsIdx j k 0).val = (j 0).val := by
  unfold DotDims.rhsIdx
  rw [dif_pos (show (0 : Fin S128x128x128.rank) ∈ dot_S128x8x128_S128x128x128_S128x8x128_2_1_1_2_0_0.rhsBatch by decide)]
  rfl

theorem kp_rhs_1 (j : S128x8x128.Idx) (k : kp_dot.contr.Idx) :
    (dot_S128x8x128_S128x128x128_S128x8x128_2_1_1_2_0_0.rhsIdx j k 1).val = (k ⟨0, by decide⟩).val :=
  DotDims.rhsIdx_val_of_single _ (cr := 1) rfl j k

theorem kp_rhs_2 (j : S128x8x128.Idx) (k : kp_dot.contr.Idx) :
    (dot_S128x8x128_S128x128x128_S128x8x128_2_1_1_2_0_0.rhsIdx j k 2).val = (j 2).val := by
  unfold DotDims.rhsIdx
  rw [dif_neg (show ¬(2 : Fin S128x128x128.rank) ∈ dot_S128x8x128_S128x128x128_S128x8x128_2_1_1_2_0_0.rhsBatch by decide),
    dif_pos (show (2 : Fin S128x128x128.rank) ∈ dot_S128x8x128_S128x128x128_S128x8x128_2_1_1_2_0_0.rhsNonContracting by decide)]
  rfl

/-- The batched product read at (i, r, p): the sum over the 128 columns j of the left operand at (i, r, j) times the right at (i, j, p). -/
theorem kp_mat_apply (A : FVec Ideal S128x8x128 .bf16) (B : FVec Ideal S128x128x128 .bf16) (i : Fin 128) (r : Fin 8) (p : Fin 128) :
    matmul dot_S128x8x128_S128x128x128_S128x8x128_2_1_1_2_0_0 none A B (constant (F := Ideal) S128x8x128 .f32 0x00000000#32) (ix3 i r p)
      = ∑ j : Fin 128, A (ix3 i r j) * B (ix3 i j p) := by
  refine (Ideal.matmul_constant_zero_apply _ none A B (ix3 i r p)).trans ?_
  rw [← Equiv.sum_comp (contrEquiv1 kp_dot 128 rfl rfl).symm]
  refine Finset.sum_congr rfl fun j _ => ?_
  have hk : (((contrEquiv1 kp_dot 128 rfl rfl).symm j) ⟨0, by decide⟩ : ℕ) = j.val := contrEquiv1_symm_val kp_dot 128 rfl rfl j
  congr 1
  · congr 1
    funext a
    apply Fin.ext
    match a with
    | ⟨0, _⟩ => exact kp_lhs_0 _ _
    | ⟨1, _⟩ => exact kp_lhs_1 _ _
    | ⟨2, _⟩ => exact (kp_lhs_2 _ _).trans hk
  · congr 1
    funext a
    apply Fin.ext
    match a with
    | ⟨0, _⟩ => exact kp_rhs_0 _ _
    | ⟨1, _⟩ => exact (kp_rhs_1 _ _).trans hk
    | ⟨2, _⟩ => exact kp_rhs_2 _ _

/-- The indicator of two words being equal, widened and converted: one when they are equal, else zero. -/
theorem kp_ind_word (a b : BitVec 32) :
    FloatOps.sitofp (F := Ideal) .f32 ((IntOp.cmpi .eq a b).setWidth 32) = if a = b then (1 : EReal) else 0 := by
  by_cases h : a = b
  · have hc : IntOp.cmpi .eq a b = 1#1 := IntOp.cmpi_eq.2 h
    rw [if_pos h, hc]
    show (((((1#1 : BitVec 1).setWidth 32).toInt : ℝ)) : EReal) = 1
    norm_num
  · have hc : IntOp.cmpi .eq a b = 0#1 := eq_zero_of_ne_one (fun h1 => h (IntOp.cmpi_eq.1 h1))
    rw [if_neg h, hc]
    show (((((0#1 : BitVec 1).setWidth 32).toInt : ℝ)) : EReal) = 0
    norm_num

/-- The word of the ones row is the extended real one. -/
theorem kp_one_bf16 : Scalar.ofBits (F := Ideal) .bf16 0x3F80#16 = (1 : EReal) := by
  show Ideal.ofBits .bf16 0x3F80#16 = 1
  simp [Ideal.ofBits, Ideal.ieee, -EReal.coe_mul]
  norm_num

/-- The indicator operand read at (i, j, p). -/
theorem kp_onehot_apply (v3 : IVec S1x1x128 32) (v10 : Vec Ideal S1x128x128 .i32) (i j p : Fin 128) :
    kp_onehot v3 v10 (ix3 i j p)
      = if v10 (ix3 (0 : Fin 1) i j) = v3 (ix3 (0 : Fin 1) (0 : Fin 1) p) then (1 : EReal) else 0 := by
  have e1 : broadcastTo S128x128x128 (shapeCast S128x128x1 (shapeCast S128x128 v10 shapeCasts_S1x128x128_S128x128 : IVec S128x128 32) shapeCasts_S128x128_S128x128x1) broadcasts_S128x128x1_S128x128x128 (ix3 i j p)
      = v10 (ix3 (0 : Fin 1) i j) := by
    refine (broadcastTo_apply _ _ (ix3 i j p) (ix3 i j (0 : Fin 1)) ?_).trans ?_
    · intro a
      match a with
      | ⟨0, _⟩ => rfl
      | ⟨1, _⟩ => rfl
      | ⟨2, _⟩ => rfl
    refine (shapeCast_apply _ _ (ix3 i j (0 : Fin 1)) (ix2 i j) ?_).trans ?_
    · rw [Shape.rowMajor_val_two, Shape.rowMajor_val_three]
      show i.val * 128 + j.val = (i.val * 128 + j.val) * 1 + 0
      omega
    refine shapeCast_apply _ _ (ix2 i j) (ix3 (0 : Fin 1) i j) ?_
    rw [Shape.rowMajor_val_two, Shape.rowMajor_val_three]
    show (0 * 128 + i.val) * 128 + j.val = i.val * 128 + j.val
    omega
  have e2 : broadcastTo S128x128x128 v3 broadcasts_S1x1x128_S128x128x128 (ix3 i j p) = v3 (ix3 (0 : Fin 1) (0 : Fin 1) p) := by
    refine broadcastTo_apply _ _ (ix3 i j p) (ix3 (0 : Fin 1) (0 : Fin 1) p) ?_
    intro a
    match a with
    | ⟨0, _⟩ => rfl
    | ⟨1, _⟩ => rfl
    | ⟨2, _⟩ => rfl
  unfold kp_onehot
  rw [truncf_apply, sitofp_apply, extui_apply]
  show FloatOps.sitofp (F := Ideal) .f32 ((IntOp.cmpi .eq _ _).setWidth 32) = _
  rw [e1, e2]
  exact kp_ind_word _ _

/-- A block viewed as 128 lines by 128 columns and then as 128 lines of one row, read at (i, 0, j). -/
theorem kp_row_cast_apply (v : Vec Ideal S1x128x128 .f32) (i j : Fin 128) :
    shapeCast S128x1x128 (truncf .bf16 (shapeCast S128x128 v shapeCasts_S1x128x128_S128x128 : FVec Ideal S128x128 .f32) bitsLt_bf16_f32 : FVec Ideal S128x128 .bf16) shapeCasts_S128x128_S128x1x128 (ix3 i (0 : Fin 1) j)
      = v (ix3 (0 : Fin 1) i j) := by
  refine (shapeCast_apply _ _ (ix3 i (0 : Fin 1) j) (ix2 i j) ?_).trans ?_
  · rw [Shape.rowMajor_val_two, Shape.rowMajor_val_three]
    show i.val * 128 + j.val = (i.val * 1 + 0) * 128 + j.val
    omega
  rw [truncf_apply]
  refine shapeCast_apply _ _ (ix2 i j) (ix3 (0 : Fin 1) i j) ?_
  rw [Shape.rowMajor_val_two, Shape.rowMajor_val_three]
  show (0 * 128 + i.val) * 128 + j.val = i.val * 128 + j.val
  omega

/-- Row 0 of the stacked rows is the prediction chunk. -/
theorem kp_table_row0 (v13 v16 : Vec Ideal S1x128x128 .f32) (i j : Fin 128) :
    kp_table v13 v16 (ix3 i (0 : Fin 8) j) = v13 (ix3 (0 : Fin 1) i j) := by
  unfold kp_table
  refine (concatenate_apply_piece (1 : Fin S128x8x128.rank) _ _ (ix3 i (0 : Fin 8) j) 0 (by show (0 : ℕ) < 4; omega) S128x1x128 _ rfl rfl 0 rfl
    (ix3 i (0 : Fin 1) j) ?_ ?_).trans (kp_row_cast_apply v13 i j)
  · intro b hb
    match b with
    | ⟨0, _⟩ => rfl
    | ⟨1, _⟩ => exact absurd rfl hb
    | ⟨2, _⟩ => rfl
  · rfl

/-- Row 1 is the target chunk. -/
theorem kp_table_row1 (v13 v16 : Vec Ideal S1x128x128 .f32) (i j : Fin 128) :
    kp_table v13 v16 (ix3 i (1 : Fin 8) j) = v16 (ix3 (0 : Fin 1) i j) := by
  unfold kp_table
  refine (concatenate_apply_piece (1 : Fin S128x8x128.rank) _ _ (ix3 i (1 : Fin 8) j) 1 (by show (1 : ℕ) < 4; omega) S128x1x128 _ rfl rfl 1 rfl
    (ix3 i (0 : Fin 1) j) ?_ ?_).trans (kp_row_cast_apply v16 i j)
  · intro b hb
    match b with
    | ⟨0, _⟩ => rfl
    | ⟨1, _⟩ => exact absurd rfl hb
    | ⟨2, _⟩ => rfl
  · rfl

/-- Row 2 is all ones. -/
theorem kp_table_row2 (v13 v16 : Vec Ideal S1x128x128 .f32) (i j : Fin 128) :
    kp_table v13 v16 (ix3 i (2 : Fin 8) j) = (1 : EReal) := by
  unfold kp_table
  refine (concatenate_apply_piece (1 : Fin S128x8x128.rank) _ _ (ix3 i (2 : Fin 8) j) 2 (by show (2 : ℕ) < 4; omega) S128x1x128 _ rfl rfl 2 rfl
    (ix3 i (0 : Fin 1) j) ?_ ?_).trans ?_
  · intro b hb
    match b with
    | ⟨0, _⟩ => rfl
    | ⟨1, _⟩ => exact absurd rfl hb
    | ⟨2, _⟩ => rfl
  · rfl
  · exact kp_one_bf16

/-- The table of masked sums read at (r, p): the sum over the lines i and the columns j of the stacked rows at (i, r, j)
    times the indicator at (i, j, p). -/
theorem kp_pay6_apply (v3 : IVec S1x1x128 32) (v10 : Vec Ideal S1x128x128 .i32) (v13 v16 : Vec Ideal S1x128x128 .f32)
    (r : Fin 8) (p : Fin 128) :
    k0_pay6 (F := Ideal) v3 v10 v13 v16 (ix2 r p)
      = ∑ i : Fin 128, ∑ j : Fin 128, kp_table v13 v16 (ix3 i r j) * kp_onehot v3 v10 (ix3 i j p) := by
  rw [kp_pay6_eq]
  refine (Ideal.multiReduction_add_single _ 0x00000000#32 reduces_S128x8x128_S8x128 (.inl rfl) rfl (ix2 r p)).trans ?_
  refine Finset.sum_congr rfl fun i _ => ?_
  have hi : reduces_S128x8x128_S8x128.lift (ix2 r p) i = ix3 i r p := by
    funext a
    apply Fin.ext
    match a with
    | ⟨0, _⟩ => rfl
    | ⟨1, _⟩ => rfl
    | ⟨2, _⟩ => rfl
  rw [hi]
  exact kp_mat_apply _ _ i r p

/-- A product with the indicator keeps the factor where the condition holds and is zero elsewhere. -/
theorem kp_mul_ind (x : EReal) (c : Prop) [Decidable c] : x * (if c then (1 : EReal) else 0) = if c then x else 0 := by
  by_cases h : c
  · rw [if_pos h, if_pos h, mul_one]
  · rw [if_neg h, if_neg h, mul_zero]

/-- An accumulator of 128 bins plus row r of an 8 x 128 table, read at bin p. -/
theorem kp_addrow_apply (T : FVec Ideal S8x128 .f32) (a : Vec Ideal S1x1x128 .f32) (off : Fin 2 → Nat)
    (h : S8x128.Slices off S1x128) (r : Fin 8) (hoff : off = ![r.val, 0]) (p : Fin 128) :
    shapeCast S1x1x128 (addf (shapeCast S1x128 a shapeCasts_S1x1x128_S1x128 : FVec Ideal S1x128 .f32)
        (extractStridedSlice S1x128 off T h)) shapeCasts_S1x128_S1x1x128 (ix3 (0 : Fin 1) (0 : Fin 1) p)
      = a (ix3 (0 : Fin 1) (0 : Fin 1) p) + T (ix2 r p) := by
  subst hoff
  refine (shapeCast_apply _ _ (ix3 (0 : Fin 1) (0 : Fin 1) p) (ix2 (0 : Fin 1) p) ?_).trans ?_
  · rw [Shape.rowMajor_val_two, Shape.rowMajor_val_three]
    show 0 * 128 + p.val = (0 * 1 + 0) * 128 + p.val
    omega
  rw [addf_apply]
  congr 1
  · refine shapeCast_apply _ _ (ix2 (0 : Fin 1) p) (ix3 (0 : Fin 1) (0 : Fin 1) p) ?_
    rw [Shape.rowMajor_val_two, Shape.rowMajor_val_three]
    show (0 * 1 + 0) * 128 + p.val = 0 * 128 + p.val
    omega
  · refine extractStridedSlice_apply _ _ _ (ix2 (0 : Fin 1) p) (ix2 r p) ?_
    intro b
    match b with
    | ⟨0, _⟩ => show r.val = r.val + 0; omega
    | ⟨1, _⟩ => show p.val = 0 + p.val; omega

/-- The three reset payloads are zero. -/
theorem pay1_apply (y : S1x1x128.Idx) : (k0_pay1 (F := Ideal)) y = 0 := by
  unfold k0_pay1
  show Ideal.ofBits .f32 0x00000000#32 = 0
  exact Ideal.ofBits_zero_f32
theorem pay2_apply (y : S1x1x128.Idx) : (k0_pay2 (F := Ideal)) y = 0 := by
  unfold k0_pay2
  show Ideal.ofBits .f32 0x00000000#32 = 0
  exact Ideal.ofBits_zero_f32
theorem pay3_apply (y : S1x1x128.Idx) : (k0_pay3 (F := Ideal)) y = 0 := by
  unfold k0_pay3
  show Ideal.ofBits .f32 0x00000000#32 = 0
  exact Ideal.ofBits_zero_f32

theorem step3_apply (x0 x1 : FVec Ideal S1x128x1024 .f32) (x2 : IVec S1x128x1024 32) (k : Fin k0_t1_loop.trips)
    (a : FVec Ideal S1x1x128 .f32) (p : Fin 128) :
    step3 (F := Ideal) x0 x1 x2 k a (ix3 (0 : Fin 1) (0 : Fin 1) p)
      = a (ix3 (0 : Fin 1) (0 : Fin 1) p)
        + ∑ i : Fin 128, ∑ j : Fin 128,
            (if x2 (ix3 (0 : Fin 1) i (col k j)) = BitVec.ofNat 32 p.val then x0 (ix3 (0 : Fin 1) i (col k j)) else 0) := by
  unfold step3 k0_pay7
  refine (kp_addrow_apply (k0_pay6 bins (chunk x2 k) (chunk x0 k) (chunk x1 k)) a ![0, 0] slices_S8x128_o0_0_S1x128 0 rfl p).trans ?_
  rw [kp_pay6_apply]
  refine congrArg (a (ix3 (0 : Fin 1) (0 : Fin 1) p) + ·) (Finset.sum_congr rfl fun i _ => Finset.sum_congr rfl fun j _ => ?_)
  rw [kp_table_row0, kp_onehot_apply, kp_chunk_apply, kp_chunk_apply, kp_bins_apply, kp_mul_ind]

theorem step4_apply (x0 x1 : FVec Ideal S1x128x1024 .f32) (x2 : IVec S1x128x1024 32) (k : Fin k0_t1_loop.trips)
    (a : FVec Ideal S1x1x128 .f32) (p : Fin 128) :
    step4 (F := Ideal) x0 x1 x2 k a (ix3 (0 : Fin 1) (0 : Fin 1) p)
      = a (ix3 (0 : Fin 1) (0 : Fin 1) p)
        + ∑ i : Fin 128, ∑ j : Fin 128,
            (if x2 (ix3 (0 : Fin 1) i (col k j)) = BitVec.ofNat 32 p.val then x1 (ix3 (0 : Fin 1) i (col k j)) else 0) := by
  unfold step4 k0_pay4 acc
  refine (kp_addrow_apply (k0_pay6 bins (chunk x2 k) (chunk x0 k) (chunk x1 k)) a ![1, 0] slices_S8x128_o1_0_S1x128 1 rfl p).trans ?_
  rw [kp_pay6_apply]
  refine congrArg (a (ix3 (0 : Fin 1) (0 : Fin 1) p) + ·) (Finset.sum_congr rfl fun i _ => Finset.sum_congr rfl fun j _ => ?_)
  rw [kp_table_row1, kp_onehot_apply, kp_chunk_apply, kp_chunk_apply, kp_bins_apply, kp_mul_ind]

theorem step5_apply (x0 x1 : FVec Ideal S1x128x1024 .f32) (x2 : IVec S1x128x1024 32) (k : Fin k0_t1_loop.trips)
    (a : FVec Ideal S1x1x128 .f32) (p : Fin 128) :
    step5 (F := Ideal) x0 x1 x2 k a (ix3 (0 : Fin 1) (0 : Fin 1) p)
      = a (ix3 (0 : Fin 1) (0 : Fin 1) p)
        + ∑ i : Fin 128, ∑ j : Fin 128,
            (if x2 (ix3 (0 : Fin 1) i (col k j)) = BitVec.ofNat 32 p.val then (1 : EReal) else 0) := by
  unfold step5 k0_pay5 acc
  refine (kp_addrow_apply (k0_pay6 bins (chunk x2 k) (chunk x0 k) (chunk x1 k)) a ![2, 0] slices_S8x128_o2_0_S1x128 2 rfl p).trans ?_
  rw [kp_pay6_apply]
  refine congrArg (a (ix3 (0 : Fin 1) (0 : Fin 1) p) + ·) (Finset.sum_congr rfl fun i _ => Finset.sum_congr rfl fun j _ => ?_)
  rw [kp_table_row2, kp_onehot_apply, kp_chunk_apply, kp_bins_apply, one_mul]

end Cert.KernelIdeal.Hand

end
-- ==== Proof.KTail.lean ====
/- The host operations after the region, as a function of the three output arrays they start from. -/
import proofs.«403720_j39273180954721_3_alg».proof.Proof.Gen.KernelIdeal.Frame
import proofs.«403720_j39273180954721_3_alg».proof.Proof.Spec
import Idealize.ShloMosaic.Lib.StableHlo.Run
import Idealize.ShloMosaic.PureOps.Ideal.Laws
import Idealize.ShloMosaic.Lib.Pipeline.Value

noncomputable section

open scoped BigOperators

namespace Cert.KernelIdeal.Hand

open Idealize.ShloMosaic Idealize.ShloMosaic.ValueIdx Cert.KernelIdeal Cert.KernelIdeal.Gen

/-- The reshape [32,1,128] → [32,128] read at (b, p) is the array at (b, 0, p): both have row-major position 128 b + p. -/
theorem reshape_apply (A : FVec Ideal S32x1x128 .f32) (b : Fin 32) (p : Fin 128) :
    shapeCast S32x128 A shapeCasts_S32x1x128_S32x128 (ix2 b p) = A (ix3 b (0 : Fin 1) p) := by
  refine shapeCast_apply A shapeCasts_S32x1x128_S32x128 (ix2 b p) (ix3 b 0 p) ?_
  rw [Shape.rowMajor_val_two, Shape.rowMajor_val_three]
  show (b.val * 1 + 0) * 128 + p.val = b.val * 128 + p.val
  omega

/-- A scalar broadcast to the 32 x 128 cells reads the scalar everywhere. -/
theorem bcast_apply (x : FVec Ideal S_ .f32) (j : S32x128.Idx) :
    broadcastInDim S32x128 ![] bcast_S_S32x128 x j = x ix0 := by
  unfold broadcastInDim; exact congrArg x (funext fun a => a.elim0)

/-- The keep mask of the host operations, as a function of the reshaped target sums and counts. -/
def keepV (ST CNT : FVec Ideal S32x128 .f32) : IVec S32x128 1 :=
  andi
    (andi
      (cmpf CmpFPredicate.ogt CNT (broadcastInDim S32x128 ![] bcast_S_S32x128 (constant S_ FTy.f32 0#32)))
      (cmpf CmpFPredicate.ogt ST (broadcastInDim S32x128 ![] bcast_S_S32x128 (constant S_ FTy.f32 0#32))))
    (cmpf CmpFPredicate.une ST (broadcastInDim S32x128 ![] bcast_S_S32x128 (constant S_ FTy.f32 3296313344#32)))

/-- At a cell the mask is the cell's keep bit. -/
theorem keepV_apply (ST CNT : FVec Ideal S32x128 .f32) (j : S32x128.Idx) :
    keepV ST CNT j = Cert.Spec.keepBit (ST j) (CNT j) := by
  unfold keepV Cert.Spec.keepBit
  show IntOp.andi (IntOp.andi (FloatOps.cmpf _ (CNT j) _) (FloatOps.cmpf _ (ST j) _)) (FloatOps.cmpf _ (ST j) _) = _
  rw [bcast_apply, bcast_apply]
  rfl

/-- A contribution array of the host operations: the squared difference on kept cells, zero elsewhere. -/
def sqV (SP ST CNT : FVec Ideal S32x128 .f32) : FVec Ideal S32x128 .f32 :=
  select (keepV ST CNT) (mulf (subf SP ST) (subf SP ST))
    (broadcastInDim S32x128 ![] bcast_S_S32x128 (constant S_ FTy.f32 0x00000000#32))

/-- At a cell it is the cell's contribution. -/
theorem sqV_apply (SP ST CNT : FVec Ideal S32x128 .f32) (j : S32x128.Idx) :
    sqV SP ST CNT j = Cert.Spec.sqCell (SP j) (ST j) (CNT j) := by
  unfold sqV Cert.Spec.sqCell
  rw [select_apply, keepV_apply, bcast_apply]
  rfl

/-- The mask as floats: one on kept cells, zero elsewhere. -/
def keepF (ST CNT : FVec Ideal S32x128 .f32) : FVec Ideal S32x128 .f32 := uitofp FTy.f32 (keepV ST CNT)

/-- At a cell it is the cell's indicator. -/
theorem keepF_apply (ST CNT : FVec Ideal S32x128 .f32) (j : S32x128.Idx) :
    keepF ST CNT j = Cert.Spec.keepCell (ST j) (CNT j) := by
  unfold keepF Cert.Spec.keepCell
  show FloatOps.uitofp (F := Ideal) FTy.f32 (keepV ST CNT j) = _
  rw [keepV_apply]

/-- An output array [32,1,128] reshaped to the 32 x 128 cells. -/
def rs (A : FVec Ideal S32x1x128 .f32) : FVec Ideal S32x128 .f32 :=
  fun i => shapeCast S32x128 A shapeCasts_S32x1x128_S32x128 i

theorem rs_apply (A : FVec Ideal S32x1x128 .f32) (b : Fin 32) (p : Fin 128) :
    rs A (ix2 b p) = A (ix3 b (0 : Fin 1) p) := reshape_apply A b p

/-- The host sum over both axes, from zero, is zero plus the double sum over rows and bins. -/
theorem sum_cells (x : FVec Ideal S32x128 .f32) (j : S_.Idx) :
    Host.reduceAdd x (constant S_ FTy.f32 0x00000000#32) reducesTo_S32x128_S_d0_1 h_S_ j
      = Ideal.ofBits .f32 0x00000000#32 + ∑ b : Fin 32, ∑ p : Fin 128, x (ix2 b p) := by
  show Ideal.hostReduceAdd reducesTo_S32x128_S_d0_1 x (constant (F := Ideal) S_ FTy.f32 0x00000000#32 (Shape.Idx.first h_S_)) j = _
  rw [Ideal.hostReduceAdd_total reducesTo_S32x128_S_d0_1 (fun b => b.elim0), sum_idx2]
  rfl

/-- The tail of host operations over three arbitrary output arrays. -/
theorem tail_eq (A0 A1 A2 : FVec Ideal S32x1x128 .f32) :
    Host.sqrt
      (addf
        (Host.divf
          (Host.reduceAdd (sqV (rs A0) (rs A1) (rs A2)) (constant S_ FTy.f32 0x00000000#32) reducesTo_S32x128_S_d0_1 h_S_)
          (maximumf
            (Host.reduceAdd (keepF (rs A1) (rs A2)) (constant S_ FTy.f32 0x00000000#32) reducesTo_S32x128_S_d0_1 h_S_)
            (constant S_ FTy.f32 0x3F800000#32)))
        (constant S_ FTy.f32 0x358637BD#32))
      = Cert.Spec.result (fun b p => A0 (ix3 b (0 : Fin 1) p)) (fun b p => A1 (ix3 b (0 : Fin 1) p))
          (fun b p => A2 (ix3 b (0 : Fin 1) p)) := by
  have hS : Host.reduceAdd (sqV (rs A0) (rs A1) (rs A2)) (constant S_ FTy.f32 0x00000000#32) reducesTo_S32x128_S_d0_1 h_S_
      = fun _ => Cert.Spec.total fun b p =>
          Cert.Spec.sqCell (A0 (ix3 b (0 : Fin 1) p)) (A1 (ix3 b (0 : Fin 1) p)) (A2 (ix3 b (0 : Fin 1) p)) := by
    funext j
    rw [sum_cells]
    unfold Cert.Spec.total
    simp only [sqV_apply, rs_apply]
  have hK : Host.reduceAdd (keepF (rs A1) (rs A2)) (constant S_ FTy.f32 0x00000000#32) reducesTo_S32x128_S_d0_1 h_S_
      = fun _ => Cert.Spec.total fun b p =>
          Cert.Spec.keepCell (A1 (ix3 b (0 : Fin 1) p)) (A2 (ix3 b (0 : Fin 1) p)) := by
    funext j
    rw [sum_cells]
    unfold Cert.Spec.total
    simp only [keepF_apply, rs_apply]
  rw [hS, hK]
  rfl

/- The 31 operations composed: the result buffer holds the square root of (sum of contributions / max (number of kept
   cells) 1 + eps); the callee's convert is the identity and its casts along a reference's own type are identities, so
   what is left is the tail over the three reshaped output arrays. -/
theorem ktail (Vv : Valuation τ sig (Elt Ideal)) :
    (StableHlo.after (List.flatten [hostOps1 (F := Ideal), hostOps1_1, hostOps1_2]) Vv (Proc.devRef .tc main_v21) : FVec Ideal S_ .f32)
      = Cert.Spec.result
          (fun b p => (Vv (Proc.devRef .tc main_v0_0) : FVec Ideal S32x1x128 .f32) (ix3 b (0 : Fin 1) p))
          (fun b p => (Vv (Proc.devRef .tc main_v0_1) : FVec Ideal S32x1x128 .f32) (ix3 b (0 : Fin 1) p))
          (fun b p => (Vv (Proc.devRef .tc main_v0_2) : FVec Ideal S32x1x128 .f32) (ix3 b (0 : Fin 1) p)) := by
  simp only [hostOps1, hostOps1_1, hostOps1_2, List.flatten_cons, List.flatten_nil, List.append_nil, List.cons_append, List.nil_append]
  after_results_simp
  simp only [StableHlo.TRef.ofBuf, StableHlo.TRef.toBuf, cast_eq, id]
  exact tail_eq _ _ _

end Cert.KernelIdeal.Hand

end
-- ==== Proof.KValue.lean ====
/-
  What the kernel's three output arrays hold after the run, and hence its result.

  A grid point t is (row b, tile h) = (t / 8, t % 8): its input blocks are lines 128 h … 128 h + 127 of row b.  The
  three output blocks of a row are revisited by the row's eight points and written back after the last.  Each point
  adds to an accumulator, for each of its eight chunks of 128 columns, the chunk's masked sum; the first point of a
  row starts from zero.  So after point (b, h) the accumulator at bin p holds the masked sum over the lines of tiles
  0 … h of row b (`outs3`, `outs4`, `outs5`, by induction on the point), after the row's last point the masked sum
  over the whole row, which is `Spec.seg` once lines and columns are re-indexed as (tile, line in tile) and
  (chunk, column in chunk).  The host operations after the region then give `Spec.result` of the three arrays.
-/
import proofs.«403720_j39273180954721_3_alg».proof.Proof.KBody
import proofs.«403720_j39273180954721_3_alg».proof.Proof.KPay
import proofs.«403720_j39273180954721_3_alg».proof.Proof.KTail
import proofs.«403720_j39273180954721_3_alg».proof.Proof.Spec
import Idealize.ShloMosaic.Lib.Pipeline.Value
import Idealize.ShloMosaic.Lib.ValueIdx

noncomputable section

open scoped BigOperators

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

/-! ## An accumulator after the eight chunks -/

/-- If each chunk adds `g k` at an index, the sweep adds the sum of the `g k` over the chunks below `n`. -/
theorem sweepN_apply {S : Shape} (step : Fin k0_t1_loop.trips → (S.Idx → EReal) → (S.Idx → EReal))
    (g : Fin k0_t1_loop.trips → EReal) (y : S.Idx) (hstep : ∀ k a, step k a y = a y + g k) (a : S.Idx → EReal) :
    ∀ n : ℕ, sweepN step a n y = a y + ∑ k : Fin k0_t1_loop.trips, if k.val < n then g k else 0
  | 0 => by simp [sweepN]
  | n + 1 => by
    unfold sweepN
    by_cases h : n < k0_t1_loop.trips
    · rw [dif_pos h, hstep, sweepN_apply step g y hstep a n, add_assoc]
      congr 1
      have : ∀ k : Fin k0_t1_loop.trips, (if k.val < n + 1 then g k else 0)
          = (if k.val < n then g k else 0) + (if k = ⟨n, h⟩ then g k else 0) := by
        intro k
        by_cases h1 : k.val < n
        · have h2 : k ≠ ⟨n, h⟩ := fun e => by rw [e] at h1; exact Nat.lt_irrefl _ h1
          rw [if_pos h1, if_pos (Nat.lt_succ_of_lt h1), if_neg h2, add_zero]
        · by_cases h3 : k.val = n
          · have h2 : k = ⟨n, h⟩ := Fin.ext h3
            rw [if_neg h1, if_pos (by omega), if_pos h2, zero_add]
          · have h2 : k ≠ ⟨n, h⟩ := fun e => h3 (congrArg Fin.val e)
            rw [if_neg h1, if_neg (by omega), if_neg h2, add_zero]
      rw [Finset.sum_congr rfl (fun k _ => this k), Finset.sum_add_distrib, Finset.sum_ite_eq' Finset.univ (⟨n, h⟩ : Fin k0_t1_loop.trips) g,
        if_pos (Finset.mem_univ _)]
    · rw [dif_neg h, sweepN_apply step g y hstep a n]
      congr 1
      refine Finset.sum_congr rfl fun k _ => ?_
      have hk := k.isLt
      rw [if_pos (by omega), if_pos (by omega)]

/-- After all the chunks: the sum over all of them. -/
theorem sweep_apply {S : Shape} (step : Fin k0_t1_loop.trips → (S.Idx → EReal) → (S.Idx → EReal))
    (g : Fin k0_t1_loop.trips → EReal) (y : S.Idx) (hstep : ∀ k a, step k a y = a y + g k) (a : S.Idx → EReal) :
    sweep step a y = a y + ∑ k : Fin k0_t1_loop.trips, g k := by
  unfold sweep
  rw [sweepN_apply step g y hstep a]
  exact congrArg (fun s => a y + s) (Finset.sum_congr rfl fun k _ => if_pos k.isLt)

/-! ## The input blocks, read at an index -/

variable (m : (ℓ : Loc nD τ sig) → Buf (Elt Ideal) ℓ) (ρ : Dev nD → PrngReg)

/-- The printed index maps, decided once over the grid: an input block at point t is block (t / 8, t % 8, 0), an
    output block is block (t / 8, 0, 0). -/
theorem idx_facts : ∀ t : Fin cfg0.N,
    win0_0.index t (0 : Fin 3) = t.val / 8 ∧ win0_0.index t (1 : Fin 3) = t.val % 8 ∧ win0_0.index t (2 : Fin 3) = 0
    ∧ win0_1.index t (0 : Fin 3) = t.val / 8 ∧ win0_1.index t (1 : Fin 3) = t.val % 8 ∧ win0_1.index t (2 : Fin 3) = 0
    ∧ win0_2.index t (0 : Fin 3) = t.val / 8 ∧ win0_2.index t (1 : Fin 3) = t.val % 8 ∧ win0_2.index t (2 : Fin 3) = 0
    ∧ win0_3.index t (0 : Fin 3) = t.val / 8 ∧ win0_3.index t (1 : Fin 3) = 0 ∧ win0_3.index t (2 : Fin 3) = 0
    ∧ win0_4.index t (0 : Fin 3) = t.val / 8 ∧ win0_4.index t (1 : Fin 3) = 0 ∧ win0_4.index t (2 : Fin 3) = 0
    ∧ win0_5.index t (0 : Fin 3) = t.val / 8 ∧ win0_5.index t (1 : Fin 3) = 0 ∧ win0_5.index t (2 : Fin 3) = 0 :=
  (by decide +kernel : ∀ t : Fin grid0.N, _)

/-- Line `i` of tile `h` as a line of the row. -/
def line (h : Fin 8) (i : Fin 128) : Fin 1024 := ⟨128 * h.val + i.val, by have := h.isLt; have := i.isLt; omega⟩

/-- The row and the tile of a grid point. -/
def rowOf (t : Fin cfg0.N) : Fin 32 :=
  ⟨t.val / 8, by have h : t.val < 256 := lt_of_lt_of_eq t.isLt (show cfg0.N = 256 from N_0); omega⟩
def tileOf (t : Fin cfg0.N) : Fin 8 := ⟨t.val % 8, by omega⟩

/-- The predictions' block at point t, at line i and column q: the array at (row, 128 tile + i, q). -/
theorem iblk0_apply (c : Dev nD) (t : Fin cfg0.N) (i : Fin 128) (q : Fin 1024) :
    (iblk m c 0 t : FVec Ideal S1x128x1024 .f32) (ix3 (0 : Fin 1) i q)
      = (m ((c : Thread nD τ).loc main_arg0) : FVec Ideal S32x1024x1024 .f32) (ix3 (rowOf t) (line (tileOf t) i) q) := by
  obtain ⟨e0, e1, e2, -⟩ := idx_facts t
  unfold iblk
  rw [View.read_apply]
  show V m c main_arg0 _ = m ((c : Thread nD τ).loc main_arg0) _
  rw [V_main_arg0]
  congr 1
  funext a
  apply Fin.ext
  match a with
  | ⟨0, _⟩ => show win0_0.index t (0 : Fin 3) * 1 + 1 * 0 = t.val / 8; omega
  | ⟨1, _⟩ => show win0_0.index t (1 : Fin 3) * 128 + 1 * i.val = 128 * (t.val % 8) + i.val; omega
  | ⟨2, _⟩ => show win0_0.index t (2 : Fin 3) * 1024 + 1 * q.val = q.val; omega

/-- The targets' block likewise. -/
theorem iblk1_apply (c : Dev nD) (t : Fin cfg0.N) (i : Fin 128) (q : Fin 1024) :
    (iblk m c 1 t : FVec Ideal S1x128x1024 .f32) (ix3 (0 : Fin 1) i q)
      = (m ((c : Thread nD τ).loc main_arg1) : FVec Ideal S32x1024x1024 .f32) (ix3 (rowOf t) (line (tileOf t) i) q) := by
  obtain ⟨-, -, -, e0, e1, e2, -⟩ := idx_facts t
  unfold iblk
  rw [View.read_apply]
  show V m c main_arg1 _ = m ((c : Thread nD τ).loc main_arg1) _
  rw [V_main_arg1]
  congr 1
  funext a
  apply Fin.ext
  match a with
  | ⟨0, _⟩ => show win0_1.index t (0 : Fin 3) * 1 + 1 * 0 = t.val / 8; omega
  | ⟨1, _⟩ => show win0_1.index t (1 : Fin 3) * 128 + 1 * i.val = 128 * (t.val % 8) + i.val; omega
  | ⟨2, _⟩ => show win0_1.index t (2 : Fin 3) * 1024 + 1 * q.val = q.val; omega

/-- The ids' block likewise. -/
theorem iblk2_apply (c : Dev nD) (t : Fin cfg0.N) (i : Fin 128) (q : Fin 1024) :
    (iblk m c 2 t : IVec S1x128x1024 32) (ix3 (0 : Fin 1) i q)
      = (m ((c : Thread nD τ).loc main_arg2) : IVec S32x1024x1024 32) (ix3 (rowOf t) (line (tileOf t) i) q) := by
  obtain ⟨-, -, -, -, -, -, e0, e1, e2, -⟩ := idx_facts t
  unfold iblk
  rw [View.read_apply]
  show V m c main_arg2 _ = m ((c : Thread nD τ).loc main_arg2) _
  rw [V_main_arg2]
  congr 1
  funext a
  apply Fin.ext
  match a with
  | ⟨0, _⟩ => show win0_2.index t (0 : Fin 3) * 1 + 1 * 0 = t.val / 8; omega
  | ⟨1, _⟩ => show win0_2.index t (1 : Fin 3) * 128 + 1 * i.val = 128 * (t.val % 8) + i.val; omega
  | ⟨2, _⟩ => show win0_2.index t (2 : Fin 3) * 1024 + 1 * q.val = q.val; omega

/-! ## Sums over tiles -/

/-- Over tiles 0 … 0: the first tile's term. -/
theorem sum_le_zero (G : Fin 8 → EReal) : (∑ h : Fin 8, if h.val ≤ 0 then G h else 0) = G ⟨0, by omega⟩ := by
  rw [Finset.sum_eq_single (⟨0, by omega⟩ : Fin 8)]
  · rw [if_pos (Nat.le_refl _)]
  · intro h _ hne
    have : h.val ≠ 0 := fun e => hne (Fin.ext e)
    rw [if_neg (by omega)]
  · intro h; exact absurd (Finset.mem_univ _) h

/-- Over tiles 0 … x + 1: those over 0 … x, and tile x + 1's term. -/
theorem sum_le_succ (G : Fin 8 → EReal) (x : ℕ) (hx : x + 1 < 8) :
    (∑ h : Fin 8, if h.val ≤ x + 1 then G h else 0) = (∑ h : Fin 8, if h.val ≤ x then G h else 0) + G ⟨x + 1, hx⟩ := by
  have : ∀ h : Fin 8, (if h.val ≤ x + 1 then G h else 0)
      = (if h.val ≤ x then G h else 0) + (if h = ⟨x + 1, hx⟩ then G h else 0) := by
    intro h
    by_cases h1 : h.val ≤ x
    · have h2 : h ≠ ⟨x + 1, hx⟩ := fun e => by have := congrArg Fin.val e; simp only at this; omega
      rw [if_pos h1, if_pos (by omega), if_neg h2, add_zero]
    · by_cases h3 : h.val = x + 1
      · rw [if_neg h1, if_pos (by omega), if_pos (Fin.ext h3), zero_add]
      · have h2 : h ≠ ⟨x + 1, hx⟩ := fun e => h3 (congrArg Fin.val e)
        rw [if_neg h1, if_neg (by omega), if_neg h2, add_zero]
  rw [Finset.sum_congr rfl (fun h _ => this h), Finset.sum_add_distrib,
    Finset.sum_ite_eq' Finset.univ (⟨x + 1, hx⟩ : Fin 8) G, if_pos (Finset.mem_univ _)]

/-- Over all eight tiles. -/
theorem sum_le_seven (G : Fin 8 → EReal) : (∑ h : Fin 8, if h.val ≤ 7 then G h else 0) = ∑ h : Fin 8, G h :=
  Finset.sum_congr rfl fun h _ => if_pos (by have := h.isLt; omega)

theorem lt256 (t : Fin cfg0.N) : t.val < 256 := lt_of_lt_of_eq t.isLt (show cfg0.N = 256 from N_0)

/-- THE INDUCTION OVER THE POINTS. An accumulator that restarts from zero at each row's first point and otherwise adds
    the point's tile term to what the point before left holds, after point n, the terms of tiles 0 … n % 8 of row n / 8. -/
theorem acc_inv (comp : (n : ℕ) → n < cfg0.N → EReal) (G : Fin 32 → Fin 8 → EReal)
    (hA : ∀ t : Fin cfg0.N, t.val % 8 = 0 → comp t.val t.isLt = 0 + G (rowOf t) (tileOf t))
    (hB : ∀ t : Fin cfg0.N, ¬t.val % 8 = 0 →
      comp t.val t.isLt = comp (t.val - 1) (Nat.lt_of_le_of_lt (Nat.sub_le _ _) t.isLt) + G (rowOf t) (tileOf t)) :
    ∀ (n : ℕ) (hn : n < cfg0.N), comp n hn = ∑ h : Fin 8, if h.val ≤ n % 8 then G (rowOf ⟨n, hn⟩) h else 0
  | 0, hn => by
    rw [hA ⟨0, hn⟩ rfl, zero_add, show (0 : ℕ) % 8 = 0 from rfl, sum_le_zero]
    rfl
  | n + 1, hn => by
    by_cases h0 : (n + 1) % 8 = 0
    · rw [hA ⟨n + 1, hn⟩ h0, zero_add, h0, sum_le_zero]
      exact congrArg _ (Fin.ext h0)
    · have ih := acc_inv comp G hA hB n (Nat.lt_of_succ_lt hn)
      have hrow : rowOf ⟨n, Nat.lt_of_succ_lt hn⟩ = rowOf ⟨n + 1, hn⟩ := Fin.ext (by show n / 8 = (n + 1) / 8; omega)
      have hmod : (n + 1) % 8 = n % 8 + 1 := by omega
      have hlt : n % 8 + 1 < 8 := by omega
      rw [hB ⟨n + 1, hn⟩ h0]
      show comp n _ + _ = _
      rw [ih, hrow, hmod, sum_le_succ _ _ hlt]
      exact congrArg _ (congrArg _ (Fin.ext hmod))

/-! ## The row's masked sum, tile by tile -/

/-- One pixel's masked entry. -/
def ent (f : Cert.Spec.SA.Idx → EReal) (pid : IVec Cert.Spec.SA 32) (b : Fin 32) (p : Fin 128) (r q : Fin 1024) : EReal :=
  if pid (ix3 b r q) = BitVec.ofNat 32 p.val then f (ix3 b r q) else 0

/-- Tile `h`'s masked sum, in the kernel's order: chunks, then lines, then columns. -/
def tileSum (f : Cert.Spec.SA.Idx → EReal) (pid : IVec Cert.Spec.SA 32) (b : Fin 32) (p : Fin 128) (h : Fin 8) : EReal :=
  ∑ k : Fin k0_t1_loop.trips, ∑ i : Fin 128, ∑ j : Fin 128, ent f pid b p (line h i) (col k j)

/-- A sum over 1024 as eight runs of 128. -/
theorem sum_split (F : Fin 1024 → EReal) :
    (∑ r : Fin 1024, F r) = ∑ h : Fin 8, ∑ i : Fin 128, F (line h i) := by
  have e : (∑ x : Fin 8 × Fin 128, F (line x.1 x.2)) = ∑ r : Fin 1024, F r :=
    Fintype.sum_equiv (finProdFinEquiv (m := 8) (n := 128)) (fun x : Fin 8 × Fin 128 => F (line x.1 x.2)) F
      (fun x => congrArg F (Fin.ext (by
        show 128 * x.1.val + x.2.val = x.2.val + 128 * x.1.val
        omega)))
  rw [← e]
  exact Fintype.sum_prod_type (fun x : Fin 8 × Fin 128 => F (line x.1 x.2))

/-- The row's masked sum is the sum of its eight tiles' sums. -/
theorem seg_eq_tiles (f : Cert.Spec.SA.Idx → EReal) (pid : IVec Cert.Spec.SA 32) (b : Fin 32) (p : Fin 128) :
    Cert.Spec.seg f pid b p = ∑ h : Fin 8, tileSum f pid b p h := by
  unfold Cert.Spec.seg
  show (∑ r : Fin 1024, ∑ q : Fin 1024, ent f pid b p r q) = _
  rw [sum_split]
  refine Finset.sum_congr rfl fun h _ => ?_
  have hcols : ∀ i : Fin 128, (∑ q : Fin 1024, ent f pid b p (line h i) q)
      = ∑ k : Fin 8, ∑ j : Fin 128, ent f pid b p (line h i) (line k j) := fun i => sum_split _
  rw [Finset.sum_congr rfl (fun i _ => hcols i)]
  unfold tileSum
  show (∑ i : Fin 128, ∑ k : Fin 8, ∑ j : Fin 128, ent f pid b p (line h i) (line k j))
      = ∑ k : Fin 8, ∑ i : Fin 128, ∑ j : Fin 128, ent f pid b p (line h i) (line k j)
  exact Finset.sum_comm

/-! ## One point's update at a bin, and the accumulators after each point -/

/-- The three argument arrays with their literal types. -/
abbrev a0 (c : Dev nD) : Cert.Spec.SA.Idx → EReal := m ((c : Thread nD τ).loc main_arg0)
abbrev a1 (c : Dev nD) : Cert.Spec.SA.Idx → EReal := m ((c : Thread nD τ).loc main_arg1)
abbrev a2 (c : Dev nD) : IVec Cert.Spec.SA 32 := m ((c : Thread nD τ).loc main_arg2)

/-- The bin of an accumulator index. -/
def binOf (y : S1x1x128.Idx) : Fin 128 := ⟨(y 2).val, (y 2).isLt⟩

/-- One point's eight chunks add the point's tile sum (output 3). -/
theorem point3 (c : Dev nD) (t : Fin cfg0.N) (a : FVec Ideal S1x1x128 .f32) (y : S1x1x128.Idx) :
    sweep (step3 (F := Ideal) (iblk m c 0 t) (iblk m c 1 t) (iblk m c 2 t)) a y
      = a y + tileSum (a0 m c) (a2 m c) (rowOf t) (binOf y) (tileOf t) := by
  obtain ⟨y0, y1, p, rfl⟩ : ∃ (y0 : Fin 1) (y1 : Fin 1) (p : Fin 128), y = ix3 y0 y1 p := ⟨y 0, y 1, y 2, eq_ix3 y⟩
  obtain rfl : y0 = 0 := Subsingleton.elim _ _
  obtain rfl : y1 = 0 := Subsingleton.elim _ _
  rw [sweep_apply (step3 (F := Ideal) (iblk m c 0 t) (iblk m c 1 t) (iblk m c 2 t)) _ (ix3 (0 : Fin 1) (0 : Fin 1) p)
    (fun k a => step3_apply (iblk m c 0 t) (iblk m c 1 t) (iblk m c 2 t) k a p)]
  refine congrArg (fun s => a (ix3 (0 : Fin 1) (0 : Fin 1) p) + s) ?_
  unfold tileSum ent
  refine Finset.sum_congr rfl fun k _ => Finset.sum_congr rfl fun i _ => Finset.sum_congr rfl fun j _ => ?_
  rw [iblk2_apply m c t i (col k j), iblk0_apply m c t i (col k j)]
  rfl

/-- One point's eight chunks add the point's tile sum (output 4). -/
theorem point4 (c : Dev nD) (t : Fin cfg0.N) (a : FVec Ideal S1x1x128 .f32) (y : S1x1x128.Idx) :
    sweep (step4 (F := Ideal) (iblk m c 0 t) (iblk m c 1 t) (iblk m c 2 t)) a y
      = a y + tileSum (a1 m c) (a2 m c) (rowOf t) (binOf y) (tileOf t) := by
  obtain ⟨y0, y1, p, rfl⟩ : ∃ (y0 : Fin 1) (y1 : Fin 1) (p : Fin 128), y = ix3 y0 y1 p := ⟨y 0, y 1, y 2, eq_ix3 y⟩
  obtain rfl : y0 = 0 := Subsingleton.elim _ _
  obtain rfl : y1 = 0 := Subsingleton.elim _ _
  rw [sweep_apply (step4 (F := Ideal) (iblk m c 0 t) (iblk m c 1 t) (iblk m c 2 t)) _ (ix3 (0 : Fin 1) (0 : Fin 1) p)
    (fun k a => step4_apply (iblk m c 0 t) (iblk m c 1 t) (iblk m c 2 t) k a p)]
  refine congrArg (fun s => a (ix3 (0 : Fin 1) (0 : Fin 1) p) + s) ?_
  unfold tileSum ent
  refine Finset.sum_congr rfl fun k _ => Finset.sum_congr rfl fun i _ => Finset.sum_congr rfl fun j _ => ?_
  rw [iblk2_apply m c t i (col k j), iblk1_apply m c t i (col k j)]
  rfl

/-- One point's eight chunks add the point's tile sum (output 5). -/
theorem point5 (c : Dev nD) (t : Fin cfg0.N) (a : FVec Ideal S1x1x128 .f32) (y : S1x1x128.Idx) :
    sweep (step5 (F := Ideal) (iblk m c 0 t) (iblk m c 1 t) (iblk m c 2 t)) a y
      = a y + tileSum (fun _ => (1 : EReal)) (a2 m c) (rowOf t) (binOf y) (tileOf t) := by
  obtain ⟨y0, y1, p, rfl⟩ : ∃ (y0 : Fin 1) (y1 : Fin 1) (p : Fin 128), y = ix3 y0 y1 p := ⟨y 0, y 1, y 2, eq_ix3 y⟩
  obtain rfl : y0 = 0 := Subsingleton.elim _ _
  obtain rfl : y1 = 0 := Subsingleton.elim _ _
  rw [sweep_apply (step5 (F := Ideal) (iblk m c 0 t) (iblk m c 1 t) (iblk m c 2 t)) _ (ix3 (0 : Fin 1) (0 : Fin 1) p)
    (fun k a => step5_apply (iblk m c 0 t) (iblk m c 1 t) (iblk m c 2 t) k a p)]
  refine congrArg (fun s => a (ix3 (0 : Fin 1) (0 : Fin 1) p) + s) ?_
  unfold tileSum ent
  refine Finset.sum_congr rfl fun k _ => Finset.sum_congr rfl fun i _ => Finset.sum_congr rfl fun j _ => ?_
  rw [iblk2_apply m c t i (col k j)]
  rfl

/-- Output 3's accumulator after point n, at a bin: tiles 0 … n % 8 of row n / 8. -/
theorem outs3 (c : Dev nD) (y : S1x1x128.Idx) : ∀ (n : ℕ) (hn : n < cfg0.N),
    ((outsAt0 m c n hn).1 : FVec Ideal S1x1x128 .f32) y
      = ∑ h : Fin 8, if h.val ≤ n % 8 then tileSum (a0 m c) (a2 m c) (rowOf ⟨n, hn⟩) (binOf y) h else 0 :=
  acc_inv (fun n hn => ((outsAt0 m c n hn).1 : FVec Ideal S1x1x128 .f32) y)
    (fun b h => tileSum (a0 m c) (a2 m c) b (binOf y) h)
    (fun t h0 => by
      show ((outsAt0 m c t.val t.isLt).1 : FVec Ideal S1x1x128 .f32) y = _
      rw [outsAt0_A m c t h0]
      dsimp only
      rw [out0_A_3_eq c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t) (iblk m c 2 t),
        point3 m c t _ y, pay1_apply])
    (fun t h0 => by
      show ((outsAt0 m c t.val t.isLt).1 : FVec Ideal S1x1x128 .f32) y = _
      rw [outsAt0_B m c t h0]
      dsimp only
      rw [out0_B_3_eq c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t) (iblk m c 2 t)
          (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2,
        point3 m c t _ y])

/-- Output 4's accumulator after point n, at a bin: tiles 0 … n % 8 of row n / 8. -/
theorem outs4 (c : Dev nD) (y : S1x1x128.Idx) : ∀ (n : ℕ) (hn : n < cfg0.N),
    ((outsAt0 m c n hn).2.1 : FVec Ideal S1x1x128 .f32) y
      = ∑ h : Fin 8, if h.val ≤ n % 8 then tileSum (a1 m c) (a2 m c) (rowOf ⟨n, hn⟩) (binOf y) h else 0 :=
  acc_inv (fun n hn => ((outsAt0 m c n hn).2.1 : FVec Ideal S1x1x128 .f32) y)
    (fun b h => tileSum (a1 m c) (a2 m c) b (binOf y) h)
    (fun t h0 => by
      show ((outsAt0 m c t.val t.isLt).2.1 : FVec Ideal S1x1x128 .f32) y = _
      rw [outsAt0_A m c t h0]
      dsimp only
      rw [out0_A_4_eq c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t) (iblk m c 2 t),
        point4 m c t _ y, pay2_apply])
    (fun t h0 => by
      show ((outsAt0 m c t.val t.isLt).2.1 : FVec Ideal S1x1x128 .f32) y = _
      rw [outsAt0_B m c t h0]
      dsimp only
      rw [out0_B_4_eq c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t) (iblk m c 2 t)
          (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2,
        point4 m c t _ y])

/-- Output 5's accumulator after point n, at a bin: tiles 0 … n % 8 of row n / 8. -/
theorem outs5 (c : Dev nD) (y : S1x1x128.Idx) : ∀ (n : ℕ) (hn : n < cfg0.N),
    ((outsAt0 m c n hn).2.2 : FVec Ideal S1x1x128 .f32) y
      = ∑ h : Fin 8, if h.val ≤ n % 8 then tileSum (fun _ => (1 : EReal)) (a2 m c) (rowOf ⟨n, hn⟩) (binOf y) h else 0 :=
  acc_inv (fun n hn => ((outsAt0 m c n hn).2.2 : FVec Ideal S1x1x128 .f32) y)
    (fun b h => tileSum (fun _ => (1 : EReal)) (a2 m c) b (binOf y) h)
    (fun t h0 => by
      show ((outsAt0 m c t.val t.isLt).2.2 : FVec Ideal S1x1x128 .f32) y = _
      rw [outsAt0_A m c t h0]
      dsimp only
      rw [out0_A_5_eq c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t) (iblk m c 2 t),
        point5 m c t _ y, pay3_apply])
    (fun t h0 => by
      show ((outsAt0 m c t.val t.isLt).2.2 : FVec Ideal S1x1x128 .f32) y = _
      rw [outsAt0_B m c t h0]
      dsimp only
      rw [out0_B_5_eq c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t) (iblk m c 2 t)
          (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2,
        point5 m c t _ y])

/-! ## The output arrays after the run -/

/-- Output 3's array after the run: at (b, 0, p) the row's masked sum. -/
def G3 (c : Dev nD) : Buf (Elt Ideal) ((c : Thread nD τ).loc main_v0_0) :=
  fun i => Cert.Spec.seg (a0 m c) (a2 m c) ⟨(i 0).val, (i 0).isLt⟩ ⟨(i 2).val, (i 2).isLt⟩

/-- What a row's last point writes back is the row's block of that array. -/
theorem flushed3_eq (c : Dev nD) (t : Fin cfg0.N) (hf : (cfg0.win 3).flush t = true) :
    (dats m 0 c).flushed 3 t = ((cfg0.win 3).blk t).view.read (Elt Ideal) (G3 m c) := by
  have h7 : t.val % 8 = 7 := (flush0_3 t).mp hf
  obtain ⟨-, -, -, -, -, -, -, -, -, e0, e1, e2, -⟩ := idx_facts t
  show (cfg0.win 3).cut (grid0.coords t) ((dats m 0 c).after 3 t) = _
  rw [after0_3]
  funext y
  refine (outs3 m c y t.val t.isLt).trans ?_
  rw [h7, sum_le_seven, ← seg_eq_tiles]
  show _ = G3 m c (((cfg0.win 3).blk t).view.emb y)
  unfold G3
  have hy2 : (y 2).val < 128 := (y 2).isLt
  have hy0 : (y 0).val < 1 := (y 0).isLt
  congr 1
  · apply Fin.ext
    show t.val / 8 = win0_3.index t (0 : Fin 3) * 1 + 1 * (y 0).val
    omega
  · apply Fin.ext
    show (y 2).val = win0_3.index t (2 : Fin 3) * 128 + 1 * (y 2).val
    omega

/-- Every entry of the array is in the block of its row's last point. -/
theorem cover3 (c : Dev nD) (i : ((cfg0.win 3).arr.view.loc (c.tc : Thread nD τ)).2.ty.Idx) :
    ∃ t : Fin cfg0.N, (cfg0.win 3).flush t = true ∧ i ∈ ((cfg0.win 3).blk t).view.set := by
  have h0 : (i 0).val < 32 := (i 0).isLt
  have h1 : (i 1).val < 1 := (i 1).isLt
  have h2 : (i 2).val < 128 := (i 2).isLt
  have hN : 8 * (i 0).val + 7 < cfg0.N := by rw [show cfg0.N = 256 from N_0]; omega
  refine ⟨⟨8 * (i 0).val + 7, hN⟩, (flush0_3 _).mpr (by show (8 * (i 0).val + 7) % 8 = 7; omega), ?_⟩
  obtain ⟨-, -, -, -, -, -, -, -, -, e0, e1, e2, -⟩ := idx_facts ⟨8 * (i 0).val + 7, hN⟩
  show i ∈ ((View.whole main_v0_0).slice (win0_3.rect ⟨8 * (i 0).val + 7, hN⟩)).set
  rw [View.set_slice_whole, Rect.mem_set_unit]
  intro a
  match a with
  | ⟨0, _⟩ =>
    show win0_3.index ⟨8 * (i 0).val + 7, hN⟩ (0 : Fin 3) * 1 ≤ (i 0).val ∧ (i 0).val < win0_3.index ⟨8 * (i 0).val + 7, hN⟩ (0 : Fin 3) * 1 + 1
    rw [e0]; show (8 * (i 0).val + 7) / 8 * 1 ≤ (i 0).val ∧ (i 0).val < (8 * (i 0).val + 7) / 8 * 1 + 1; omega
  | ⟨1, _⟩ =>
    show win0_3.index ⟨8 * (i 0).val + 7, hN⟩ (1 : Fin 3) * 1 ≤ (i 1).val ∧ (i 1).val < win0_3.index ⟨8 * (i 0).val + 7, hN⟩ (1 : Fin 3) * 1 + 1
    rw [e1]; omega
  | ⟨2, _⟩ =>
    show win0_3.index ⟨8 * (i 0).val + 7, hN⟩ (2 : Fin 3) * 128 ≤ (i 2).val ∧ (i 2).val < win0_3.index ⟨8 * (i 0).val + 7, hN⟩ (2 : Fin 3) * 128 + 128
    rw [e2]; omega

/-- So the array ends holding the rows' masked sums. -/
theorem final3 (c : Dev nD) : (dats m 0 c).arrAt 3 cfg0.N = G3 m c :=
  (dats m 0 c).arrAt_eq_of_cover 3 (G3 m c) (flushed3_eq m c) (cover3 c)

/-- Output 4's array after the run: at (b, 0, p) the row's masked sum. -/
def G4 (c : Dev nD) : Buf (Elt Ideal) ((c : Thread nD τ).loc main_v0_1) :=
  fun i => Cert.Spec.seg (a1 m c) (a2 m c) ⟨(i 0).val, (i 0).isLt⟩ ⟨(i 2).val, (i 2).isLt⟩

/-- What a row's last point writes back is the row's block of that array. -/
theorem flushed4_eq (c : Dev nD) (t : Fin cfg0.N) (hf : (cfg0.win 4).flush t = true) :
    (dats m 0 c).flushed 4 t = ((cfg0.win 4).blk t).view.read (Elt Ideal) (G4 m c) := by
  have h7 : t.val % 8 = 7 := (flush0_4 t).mp hf
  obtain ⟨-, -, -, -, -, -, -, -, -, -, -, -, e0, e1, e2, -⟩ := idx_facts t
  show (cfg0.win 4).cut (grid0.coords t) ((dats m 0 c).after 4 t) = _
  rw [after0_4]
  funext y
  refine (outs4 m c y t.val t.isLt).trans ?_
  rw [h7, sum_le_seven, ← seg_eq_tiles]
  show _ = G4 m c (((cfg0.win 4).blk t).view.emb y)
  unfold G4
  have hy2 : (y 2).val < 128 := (y 2).isLt
  have hy0 : (y 0).val < 1 := (y 0).isLt
  congr 1
  · apply Fin.ext
    show t.val / 8 = win0_4.index t (0 : Fin 3) * 1 + 1 * (y 0).val
    omega
  · apply Fin.ext
    show (y 2).val = win0_4.index t (2 : Fin 3) * 128 + 1 * (y 2).val
    omega

/-- Every entry of the array is in the block of its row's last point. -/
theorem cover4 (c : Dev nD) (i : ((cfg0.win 4).arr.view.loc (c.tc : Thread nD τ)).2.ty.Idx) :
    ∃ t : Fin cfg0.N, (cfg0.win 4).flush t = true ∧ i ∈ ((cfg0.win 4).blk t).view.set := by
  have h0 : (i 0).val < 32 := (i 0).isLt
  have h1 : (i 1).val < 1 := (i 1).isLt
  have h2 : (i 2).val < 128 := (i 2).isLt
  have hN : 8 * (i 0).val + 7 < cfg0.N := by rw [show cfg0.N = 256 from N_0]; omega
  refine ⟨⟨8 * (i 0).val + 7, hN⟩, (flush0_4 _).mpr (by show (8 * (i 0).val + 7) % 8 = 7; omega), ?_⟩
  obtain ⟨-, -, -, -, -, -, -, -, -, -, -, -, e0, e1, e2, -⟩ := idx_facts ⟨8 * (i 0).val + 7, hN⟩
  show i ∈ ((View.whole main_v0_1).slice (win0_4.rect ⟨8 * (i 0).val + 7, hN⟩)).set
  rw [View.set_slice_whole, Rect.mem_set_unit]
  intro a
  match a with
  | ⟨0, _⟩ =>
    show win0_4.index ⟨8 * (i 0).val + 7, hN⟩ (0 : Fin 3) * 1 ≤ (i 0).val ∧ (i 0).val < win0_4.index ⟨8 * (i 0).val + 7, hN⟩ (0 : Fin 3) * 1 + 1
    rw [e0]; show (8 * (i 0).val + 7) / 8 * 1 ≤ (i 0).val ∧ (i 0).val < (8 * (i 0).val + 7) / 8 * 1 + 1; omega
  | ⟨1, _⟩ =>
    show win0_4.index ⟨8 * (i 0).val + 7, hN⟩ (1 : Fin 3) * 1 ≤ (i 1).val ∧ (i 1).val < win0_4.index ⟨8 * (i 0).val + 7, hN⟩ (1 : Fin 3) * 1 + 1
    rw [e1]; omega
  | ⟨2, _⟩ =>
    show win0_4.index ⟨8 * (i 0).val + 7, hN⟩ (2 : Fin 3) * 128 ≤ (i 2).val ∧ (i 2).val < win0_4.index ⟨8 * (i 0).val + 7, hN⟩ (2 : Fin 3) * 128 + 128
    rw [e2]; omega

/-- So the array ends holding the rows' masked sums. -/
theorem final4 (c : Dev nD) : (dats m 0 c).arrAt 4 cfg0.N = G4 m c :=
  (dats m 0 c).arrAt_eq_of_cover 4 (G4 m c) (flushed4_eq m c) (cover4 c)

/-- Output 5's array after the run: at (b, 0, p) the row's masked sum. -/
def G5 (c : Dev nD) : Buf (Elt Ideal) ((c : Thread nD τ).loc main_v0_2) :=
  fun i => Cert.Spec.seg (fun _ => (1 : EReal)) (a2 m c) ⟨(i 0).val, (i 0).isLt⟩ ⟨(i 2).val, (i 2).isLt⟩

/-- What a row's last point writes back is the row's block of that array. -/
theorem flushed5_eq (c : Dev nD) (t : Fin cfg0.N) (hf : (cfg0.win 5).flush t = true) :
    (dats m 0 c).flushed 5 t = ((cfg0.win 5).blk t).view.read (Elt Ideal) (G5 m c) := by
  have h7 : t.val % 8 = 7 := (flush0_5 t).mp hf
  obtain ⟨-, -, -, -, -, -, -, -, -, -, -, -, -, -, -, e0, e1, e2⟩ := idx_facts t
  show (cfg0.win 5).cut (grid0.coords t) ((dats m 0 c).after 5 t) = _
  rw [after0_5]
  funext y
  refine (outs5 m c y t.val t.isLt).trans ?_
  rw [h7, sum_le_seven, ← seg_eq_tiles]
  show _ = G5 m c (((cfg0.win 5).blk t).view.emb y)
  unfold G5
  have hy2 : (y 2).val < 128 := (y 2).isLt
  have hy0 : (y 0).val < 1 := (y 0).isLt
  congr 1
  · apply Fin.ext
    show t.val / 8 = win0_5.index t (0 : Fin 3) * 1 + 1 * (y 0).val
    omega
  · apply Fin.ext
    show (y 2).val = win0_5.index t (2 : Fin 3) * 128 + 1 * (y 2).val
    omega

/-- Every entry of the array is in the block of its row's last point. -/
theorem cover5 (c : Dev nD) (i : ((cfg0.win 5).arr.view.loc (c.tc : Thread nD τ)).2.ty.Idx) :
    ∃ t : Fin cfg0.N, (cfg0.win 5).flush t = true ∧ i ∈ ((cfg0.win 5).blk t).view.set := by
  have h0 : (i 0).val < 32 := (i 0).isLt
  have h1 : (i 1).val < 1 := (i 1).isLt
  have h2 : (i 2).val < 128 := (i 2).isLt
  have hN : 8 * (i 0).val + 7 < cfg0.N := by rw [show cfg0.N = 256 from N_0]; omega
  refine ⟨⟨8 * (i 0).val + 7, hN⟩, (flush0_5 _).mpr (by show (8 * (i 0).val + 7) % 8 = 7; omega), ?_⟩
  obtain ⟨-, -, -, -, -, -, -, -, -, -, -, -, -, -, -, e0, e1, e2⟩ := idx_facts ⟨8 * (i 0).val + 7, hN⟩
  show i ∈ ((View.whole main_v0_2).slice (win0_5.rect ⟨8 * (i 0).val + 7, hN⟩)).set
  rw [View.set_slice_whole, Rect.mem_set_unit]
  intro a
  match a with
  | ⟨0, _⟩ =>
    show win0_5.index ⟨8 * (i 0).val + 7, hN⟩ (0 : Fin 3) * 1 ≤ (i 0).val ∧ (i 0).val < win0_5.index ⟨8 * (i 0).val + 7, hN⟩ (0 : Fin 3) * 1 + 1
    rw [e0]; show (8 * (i 0).val + 7) / 8 * 1 ≤ (i 0).val ∧ (i 0).val < (8 * (i 0).val + 7) / 8 * 1 + 1; omega
  | ⟨1, _⟩ =>
    show win0_5.index ⟨8 * (i 0).val + 7, hN⟩ (1 : Fin 3) * 1 ≤ (i 1).val ∧ (i 1).val < win0_5.index ⟨8 * (i 0).val + 7, hN⟩ (1 : Fin 3) * 1 + 1
    rw [e1]; omega
  | ⟨2, _⟩ =>
    show win0_5.index ⟨8 * (i 0).val + 7, hN⟩ (2 : Fin 3) * 128 ≤ (i 2).val ∧ (i 2).val < win0_5.index ⟨8 * (i 0).val + 7, hN⟩ (2 : Fin 3) * 128 + 128
    rw [e2]; omega

/-- So the array ends holding the rows' masked sums. -/
theorem final5 (c : Dev nD) : (dats m 0 c).arrAt 5 cfg0.N = G5 m c :=
  (dats m 0 c).arrAt_eq_of_cover 5 (G5 m c) (flushed5_eq m c) (cover5 c)

/-! ## The result -/

/-- The host operations after the region, over the three arrays the region left. -/
theorem host_tail_eq (c : Dev nD) :
    Pipeline.afterTail₀ cfgs (dats m) 0 (V0 m) [hostOps1, hostOps1_1, hostOps1_2] c main_v21
      = Cert.Spec.result (Cert.Spec.seg (a0 m c) (a2 m c)) (Cert.Spec.seg (a1 m c) (a2 m c))
          (Cert.Spec.seg (fun _ => (1 : EReal)) (a2 m c)) := by
  have e3 : Pipeline.withArrays spec0 c (V0 m c) (fun w => (dats m 0 c).arrAt w cfg0.N) (Proc.devRef .tc main_v0_0) = G3 m c :=
    (Pipeline.withArrays_arr spec0 launch0.win.arr_inj c _ _ 3).trans (final3 m c)
  have e4 : Pipeline.withArrays spec0 c (V0 m c) (fun w => (dats m 0 c).arrAt w cfg0.N) (Proc.devRef .tc main_v0_1) = G4 m c :=
    (Pipeline.withArrays_arr spec0 launch0.win.arr_inj c _ _ 4).trans (final4 m c)
  have e5 : Pipeline.withArrays spec0 c (V0 m c) (fun w => (dats m 0 c).arrAt w cfg0.N) (Proc.devRef .tc main_v0_2) = G5 m c :=
    (Pipeline.withArrays_arr spec0 launch0.win.arr_inj c _ _ 5).trans (final5 m c)
  unfold Pipeline.afterTail₀
  show StableHlo.after (List.flatten [hostOps1 (F := Ideal), hostOps1_1, hostOps1_2])
      (Pipeline.withArrays spec0 c (V0 m c) fun w => (dats m 0 c).arrAt w cfg0.N) (Proc.devRef .tc main_v21) = _
  rw [ktail, e3, e4, e5]
  rfl

/-- The kernel's run, read: the result at `Spec.result` of the three masked sums, the arguments unchanged. -/
theorem krun : θ_run defs (onTc (τ := τ) (main (F := Ideal))) ⟨m, fun _ => 0, ρ⟩ fun r => ∀ c : Dev nD,
      r.2.mem ((c.tc : Thread nD τ).loc main_v21)
        = Cert.Spec.result (Cert.Spec.seg (a0 m c) (a2 m c)) (Cert.Spec.seg (a1 m c) (a2 m c))
            (Cert.Spec.seg (fun _ => (1 : EReal)) (a2 m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨((h c).2 main_v21 (Pipeline.mem_restRefs_of main_v21 rfl (by decide))).trans (host_tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.Hand

end
-- ==== Proof.LibScatterRows.lean ====
/-
  The host's accumulating scatter and its row gather, read at one index, over the extended reals.

  An accumulating scatter adds to each element of its operand the sum of the update elements that land on it. An update
  element lands on the element whose coordinate, on every axis, is the update's start (an entry of the index array read
  as a SIGNED integer, and not clamped) plus its window coordinate; when that point is outside the operand on some axis
  the update is dropped. `resultIdx?_eq_some_iff` says this for any dimension numbers: landing on `i` is the system of
  equations "start + window = coordinate of `i`", one per axis, the range conditions being `i`'s own.

  Two shapes of dimension numbers are then solved, for sizes that are variables.
  * POINTS: updates `[N]`, index pairs `[N, 2]`, operand `[A, B]`. Update `j` lands on `(p, q)` iff its pair is
    `(p, q)`, so element `(p, q)` of the result is `x (p, q) + ∑ {j | pair j = (p, q)} upd j`
    (`scatterAdd_point_apply`).
  * ROWS: updates `[N, C]`, row indices `[N, 1]`, operand `[A, C]`. Element `(j, b')` of the updates lands on
    `(p, b)` iff row `j`'s index is `p` and `b' = b`, so element `(p, b)` of the result is
    `x (p, b) + ∑ {j | index j = p} upd (j, b)` (`scatterAdd_rows_apply`): the sum over update elements collapses
    onto column `b`.
  Last, the gather that takes rows of a table `[A, C]` at indices `[N, 1]`: element `(j, b)` of the result is the table
  at row `min (index j)⁺ (A − 1)` and column `b`, the index read signed and clamped into the table (`gather_rows_apply`).
-/
import Idealize.ShloMosaic.PureOps.Ideal
import Idealize.ShloMosaic.Lib.ValueIdx

noncomputable section

open scoped BigOperators

namespace Cert.ScatterRows

open Idealize.ShloMosaic Idealize.ShloMosaic.ValueIdx

/-- An update lands on element `i` exactly when, on every axis, its signed start plus its window coordinate
    is `i`'s coordinate: the range conditions are then `i`'s own. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro h a
    split at h
    · rename_i hr
      have hi := congrFun (Option.some.inj h) a
      have hv := congrArg Fin.val hi
      simp only at hv
      have := (hr a).1
      omega
    · exact absurd h (by simp)
  · intro h
    have hr : ∀ a, 0 ≤ d.start j idx a + (d.window j a : Int) ∧ d.start j idx a + (d.window j a : Int) < s.size a := by
      intro a
      have := h a
      have := (i a).isLt
      omega
    rw [dif_pos hr]
    congr 1
    funext a
    refine Fin.ext ?_
    have := h a
    simp only
    omega

/-! ## One scalar update per index pair -/

/-- one scalar update per index pair: updates [N], indices [N,2] (index vector on axis 1), operand [A,B] -/
abbrev pointDims (A B N : Nat) (wf : ScatterDims.WF ⟨2, ![A, B]⟩ ⟨2, ![N, 2]⟩ ⟨1, ![N]⟩ [] [0, 1] [0, 1] 1) :
    ScatterDims ⟨2, ![A, B]⟩ ⟨2, ![N, 2]⟩ ⟨1, ![N]⟩ := ⟨[], [0, 1], [0, 1], 1, wf⟩

section Point
variable {A B N w : Nat} (wf : ScatterDims.WF ⟨2, ![A, B]⟩ ⟨2, ![N, 2]⟩ ⟨1, ![N]⟩ [] [0, 1] [0, 1] 1)

/-- Update `j` reads component `k` of its index pair at position `(j, k)` of the index array. -/
theorem point_siIdx (j : Fin N) (c : Fin (pointDims A B N wf).scatterDimsToOperandDims.length) (k : Fin 2)
    (hc : c.val = k.val) : (pointDims A B N wf).siIdx (ix1 j) c = ix2 j k := by
  funext b; refine Fin.ext ?_
  match b with
  | ⟨0, _⟩ => rfl
  | ⟨1, _⟩ => exact hc

/-- On the operand's first axis the start is the pair's first component, read signed. -/
theorem point_start0 (idx : IVec ⟨2, ![N, 2]⟩ w) (j : Fin N) :
    (pointDims A B N wf).start (ix1 j) idx (0 : Fin 2) = (idx (ix2 j (0 : Fin 2))).toInt := by
  unfold ScatterDims.start
  rw [dif_pos (show (0 : Fin 2) ∈ (pointDims A B N wf).scatterDimsToOperandDims from List.mem_cons_self)]
  rw [point_siIdx wf j _ (0 : Fin 2)]
  rfl

/-- On the operand's second axis the start is the pair's second component, read signed. -/
theorem point_start1 (idx : IVec ⟨2, ![N, 2]⟩ w) (j : Fin N) :
    (pointDims A B N wf).start (ix1 j) idx (1 : Fin 2) = (idx (ix2 j (1 : Fin 2))).toInt := by
  unfold ScatterDims.start
  rw [dif_pos (show (1 : Fin 2) ∈ (pointDims A B N wf).scatterDimsToOperandDims from List.mem_cons_of_mem _ List.mem_cons_self)]
  rw [point_siIdx wf j _ (1 : Fin 2)]
  rfl

/-- Both operand axes are inserted: a scalar update has no window coordinate. -/
theorem point_window (j : (⟨1, ![N]⟩ : Shape).Idx) (a : Fin 2) : (pointDims A B N wf).window j a = 0 := by
  unfold ScatterDims.window
  rw [dif_neg (show a ∉ (pointDims A B N wf).sKept from by
    have : (pointDims A B N wf).sKept = [] := rfl
    rw [this]; exact List.not_mem_nil)]

/-- Update `j` lands on `(p, q)` exactly when its index pair, read signed, is `(p, q)`. -/
theorem point_resultIdx?_iff (idx : IVec ⟨2, ![N, 2]⟩ w) (j : Fin N) (p : Fin A) (q : Fin B) :
    (pointDims A B N wf).resultIdx? (ix1 j) idx = some (ix2 p q)
      ↔ (idx (ix2 j (0 : Fin 2))).toInt = (p.val : Int) ∧ (idx (ix2 j (1 : Fin 2))).toInt = (q.val : Int) := by
  rw [resultIdx?_eq_some_iff, Fin.forall_fin_two, point_start0, point_start1, point_window, point_window]
  simp only [Nat.cast_zero, add_zero]

end Point

/-- A rank-1 index set is its one coordinate's range. -/
def idxEquiv1 {n : Nat} : (⟨1, ![n]⟩ : Shape).Idx ≃ Fin n where
  toFun i := i 0
  invFun a := ix1 a
  left_inv i := (eq_ix1 i).symm
  right_inv _ := rfl

/-- THE POINT SCATTER READ AT `(p, q)`: the operand's element plus the sum of the updates whose index pair, read
    signed, is `(p, q)`; an update whose pair is outside the operand is in no such sum. -/
theorem scatterAdd_point_apply {A B N w : Nat} {φ : FTy} (wf : ScatterDims.WF ⟨2, ![A, B]⟩ ⟨2, ![N, 2]⟩ ⟨1, ![N]⟩ [] [0, 1] [0, 1] 1)
    (x : FVec Ideal ⟨2, ![A, B]⟩ φ) (idx : IVec ⟨2, ![N, 2]⟩ w) (upd : FVec Ideal ⟨1, ![N]⟩ φ) (p : Fin A) (q : Fin B) :
    Host.scatterAdd (pointDims A B N wf) x idx upd (ix2 p q)
      = x (ix2 p q) + ∑ j ∈ Finset.univ.filter (fun j : Fin N => (idx (ix2 j (0 : Fin 2))).toInt = (p.val : Int) ∧ (idx (ix2 j (1 : Fin 2))).toInt = (q.val : Int)), upd (ix1 j) := by
  show Ideal.hostScatterAdd (pointDims A B N wf) x idx upd (ix2 p q) = _
  unfold Ideal.hostScatterAdd
  congr 1
  refine Finset.sum_equiv idxEquiv1 ?_ ?_
  · intro j'
    obtain ⟨j, rfl⟩ : ∃ j, j' = ix1 j := ⟨j' 0, eq_ix1 j'⟩
    simp only [Finset.mem_filter, Finset.mem_univ, true_and]
    exact point_resultIdx?_iff wf idx j p q
  · intro j' _
    exact congrArg upd (eq_ix1 j')

/-! ## One row update per index -/

/-- one row update per index: updates [N,C] (window axis 1), indices [N,1] (index vector on axis 1), operand [A,C], rows inserted on axis 0 -/
abbrev rowDims (A C N : Nat) (wf : ScatterDims.WF ⟨2, ![A, C]⟩ ⟨2, ![N, 1]⟩ ⟨2, ![N, C]⟩ [1] [0] [0] 1) :
    ScatterDims ⟨2, ![A, C]⟩ ⟨2, ![N, 1]⟩ ⟨2, ![N, C]⟩ := ⟨[1], [0], [0], 1, wf⟩

section Rows
variable {A C N w : Nat} (wf : ScatterDims.WF ⟨2, ![A, C]⟩ ⟨2, ![N, 1]⟩ ⟨2, ![N, C]⟩ [1] [0] [0] 1)

/-- Every element of update row `j` reads its one start component at position `(j, 0)` of the index array. -/
theorem rows_siIdx (j : Fin N) (b : Fin C) (c : Fin (rowDims A C N wf).scatterDimsToOperandDims.length) :
    (rowDims A C N wf).siIdx (ix2 j b) c = ix2 j (0 : Fin 1) := by
  funext k; refine Fin.ext ?_
  match k with
  | ⟨0, _⟩ => rfl
  | ⟨1, _⟩ =>
    show c.val = 0
    have : c.val < 1 := c.isLt
    omega

/-- On the row axis the start is the row index, read signed. -/
theorem rows_start0 (idx : IVec ⟨2, ![N, 1]⟩ w) (j : Fin N) (b : Fin C) :
    (rowDims A C N wf).start (ix2 j b) idx (0 : Fin 2) = (idx (ix2 j (0 : Fin 1))).toInt := by
  unfold ScatterDims.start
  rw [dif_pos (show (0 : Fin 2) ∈ (rowDims A C N wf).scatterDimsToOperandDims from List.mem_cons_self)]
  rw [rows_siIdx]

/-- The column axis is not indexed: its start is zero. -/
theorem rows_start1 (idx : IVec ⟨2, ![N, 1]⟩ w) (j : Fin N) (b : Fin C) :
    (rowDims A C N wf).start (ix2 j b) idx (1 : Fin 2) = 0 := by
  unfold ScatterDims.start
  rw [dif_neg (show (1 : Fin 2) ∉ (rowDims A C N wf).scatterDimsToOperandDims from by
    show (1 : Fin 2) ∉ ([0] : List (Fin 2))
    decide)]

/-- The row axis is inserted: no window coordinate there. -/
theorem rows_window0 (j : Fin N) (b : Fin C) : (rowDims A C N wf).window (ix2 j b) (0 : Fin 2) = 0 := by
  unfold ScatterDims.window
  rw [dif_neg (show (0 : Fin 2) ∉ (rowDims A C N wf).sKept from by
    show (0 : Fin 2) ∉ ([1] : List (Fin 2))
    decide)]

/-- On the column axis the window coordinate is the update's column. -/
theorem rows_window1 (j : Fin N) (b : Fin C) : (rowDims A C N wf).window (ix2 j b) (1 : Fin 2) = b.val := by
  unfold ScatterDims.window
  rw [dif_pos (show (1 : Fin 2) ∈ (rowDims A C N wf).sKept from by
    have : (rowDims A C N wf).sKept = [1] := rfl
    rw [this]; exact List.mem_cons_self)]
  rfl

/-- An update element lands on `(p, b)` exactly when its row's index, read signed, is `p` and its column is `b`. -/
theorem rows_resultIdx?_iff (idx : IVec ⟨2, ![N, 1]⟩ w) (j' : (⟨2, ![N, C]⟩ : Shape).Idx) (p : Fin A) (b : Fin C) :
    (rowDims A C N wf).resultIdx? j' idx = some (ix2 p b)
      ↔ (idx (ix2 (j' 0) (0 : Fin 1))).toInt = (p.val : Int) ∧ j' 1 = b := by
  obtain ⟨j, b', rfl⟩ : ∃ j b', j' = ix2 j b' := ⟨j' 0, j' 1, eq_ix2 j'⟩
  show _ ↔ (idx (ix2 j (0 : Fin 1))).toInt = (p.val : Int) ∧ b' = b
  rw [resultIdx?_eq_some_iff, Fin.forall_fin_two, rows_start0, rows_start1, rows_window0, rows_window1]
  simp only [Nat.cast_zero, add_zero, zero_add]
  constructor
  · rintro ⟨h0, h1⟩
    exact ⟨h0, Fin.ext (Int.ofNat_inj.mp h1)⟩
  · rintro ⟨h0, rfl⟩
    exact ⟨h0, rfl⟩

end Rows

/-- THE ROW SCATTER READ AT `(p, b)`: the operand's element plus the sum, over the update rows whose index read
    signed is `p`, of that row's element in column `b`; a row whose index is outside the operand is in no such sum. -/
theorem scatterAdd_rows_apply {A C N w : Nat} {φ : FTy} (wf : ScatterDims.WF ⟨2, ![A, C]⟩ ⟨2, ![N, 1]⟩ ⟨2, ![N, C]⟩ [1] [0] [0] 1)
    (x : FVec Ideal ⟨2, ![A, C]⟩ φ) (idx : IVec ⟨2, ![N, 1]⟩ w) (upd : FVec Ideal ⟨2, ![N, C]⟩ φ) (p : Fin A) (b : Fin C) :
    Host.scatterAdd (rowDims A C N wf) x idx upd (ix2 p b)
      = x (ix2 p b) + ∑ j ∈ Finset.univ.filter (fun j : Fin N => (idx (ix2 j (0 : Fin 1))).toInt = (p.val : Int)), upd (ix2 j b) := by
  show Ideal.hostScatterAdd (rowDims A C N wf) x idx upd (ix2 p b) = _
  unfold Ideal.hostScatterAdd
  congr 1
  have hcol : ∀ j' ∈ Finset.univ.filter (fun j' => (rowDims A C N wf).resultIdx? j' idx = some (ix2 p b)),
      ix2 (j' 0) b = j' := by
    intro j' hj'
    rw [Finset.mem_filter] at hj'
    have h := ((rows_resultIdx?_iff wf idx j' p b).mp hj'.2).2
    rw [← h]
    exact (eq_ix2 j').symm
  refine Finset.sum_nbij' (fun j' => j' 0) (fun j => ix2 j b) ?_ ?_ ?_ ?_ ?_
  · intro j' hj'
    rw [Finset.mem_filter] at hj'
    exact Finset.mem_filter.mpr ⟨Finset.mem_univ _, ((rows_resultIdx?_iff wf idx j' p b).mp hj'.2).1⟩
  · intro j hj
    rw [Finset.mem_filter] at hj
    exact Finset.mem_filter.mpr ⟨Finset.mem_univ _, (rows_resultIdx?_iff wf idx (ix2 j b) p b).mpr ⟨hj.2, rfl⟩⟩
  · exact hcol
  · intro j _
    rfl
  · intro j' hj'
    exact congrArg upd (hcol j' hj').symm

/-! ## Taking rows of a table -/

/-- take rows of a table [A,C] at indices [N,1]: result [N,C]; offset_dims [1], collapsed [0], start_index_map [0], index vector on axis 1, slice sizes [1, C] -/
abbrev rowGather (A C N : Nat) (wf : GatherDims.WF ⟨2, ![A, C]⟩ ⟨2, ![N, 1]⟩ ⟨2, ![N, C]⟩ [1] [0] [] [0] [] 1 ![1, C]) :
    GatherDims ⟨2, ![A, C]⟩ ⟨2, ![N, 1]⟩ ⟨2, ![N, C]⟩ where
  offsetDims := [1]
  collapsedSliceDims := [0]
  operandBatchingDims := []
  startIndicesBatchingDims := []
  startIndexMap := [0]
  indexVectorDim := 1
  sliceSizes := ![1, C]
  wf := wf

section Gather
variable {A C N w : Nat} (wf : GatherDims.WF ⟨2, ![A, C]⟩ ⟨2, ![N, 1]⟩ ⟨2, ![N, C]⟩ [1] [0] [] [0] [] 1 ![1, C])

/-- Every element of result row `j` reads its one start component at position `(j, 0)` of the index array. -/
theorem gather_siIdx (j : Fin N) (b : Fin C) (c : Fin (rowGather A C N wf).startIndexMap.length) :
    (rowGather A C N wf).siIdx (ix2 j b) c = ix2 j (0 : Fin 1) := by
  funext k; refine Fin.ext ?_
  match k with
  | ⟨0, _⟩ => rfl
  | ⟨1, _⟩ =>
    show c.val = 0
    have : c.val < 1 := c.isLt
    omega

/-- On the row axis the operand coordinate is the row index, read signed and clamped into `[0, A − 1]`. -/
theorem gather_coord0 (idx : IVec ⟨2, ![N, 1]⟩ w) (j : Fin N) (b : Fin C) :
    (rowGather A C N wf).start (ix2 j b) idx (0 : Fin 2) + (rowGather A C N wf).batchCoord (ix2 j b) (0 : Fin 2)
        + (rowGather A C N wf).offCoord (ix2 j b) (0 : Fin 2)
      = min (idx (ix2 j (0 : Fin 1))).toInt.toNat (A - 1) := by
  rw [GatherDims.batchCoord_eq_zero _ _ _ List.not_mem_nil,
    GatherDims.offCoord_eq_zero _ _ _ (fun h => ((GatherDims.mem_sKept _ _).mp h).1 List.mem_cons_self)]
  simp only [Nat.add_zero]
  unfold GatherDims.start
  rw [dif_pos (show (0 : Fin 2) ∈ (rowGather A C N wf).startIndexMap from List.mem_cons_self)]
  rw [gather_siIdx]
  rfl

/-- On the column axis the operand coordinate is the result's column. -/
theorem gather_coord1 (idx : IVec ⟨2, ![N, 1]⟩ w) (j : Fin N) (b : Fin C) :
    (rowGather A C N wf).start (ix2 j b) idx (1 : Fin 2) + (rowGather A C N wf).batchCoord (ix2 j b) (1 : Fin 2)
        + (rowGather A C N wf).offCoord (ix2 j b) (1 : Fin 2)
      = b.val := by
  have hs : (rowGather A C N wf).start (ix2 j b) idx (1 : Fin 2) = 0 := by
    unfold GatherDims.start
    rw [dif_neg (show (1 : Fin 2) ∉ (rowGather A C N wf).startIndexMap from by
      show (1 : Fin 2) ∉ ([0] : List (Fin 2))
      decide)]
  rw [hs, GatherDims.batchCoord_eq_zero _ _ _ List.not_mem_nil]
  simp only [Nat.add_zero, Nat.zero_add]
  unfold GatherDims.offCoord
  rw [dif_pos (show (1 : Fin 2) ∈ (rowGather A C N wf).sKept from by
    rw [GatherDims.mem_sKept]
    exact ⟨by show (1 : Fin 2) ∉ ([0] : List (Fin 2)); decide, List.not_mem_nil⟩)]
  rfl

end Gather

/-- THE ROW GATHER READ AT `(j, b)`: the table's element in column `b` of the row whose number is index `j`, read
    signed and clamped into `[0, A − 1]`. -/
theorem gather_rows_apply {α : Type} {A C N w : Nat} (hA : 0 < A) (wf : GatherDims.WF ⟨2, ![A, C]⟩ ⟨2, ![N, 1]⟩ ⟨2, ![N, C]⟩ [1] [0] [] [0] [] 1 ![1, C])
    (x : (⟨2, ![A, C]⟩ : Shape).Idx → α) (idx : IVec ⟨2, ![N, 1]⟩ w) (j : Fin N) (b : Fin C) :
    Host.gather (rowGather A C N wf) x idx (ix2 j b)
      = x (ix2 ⟨min (idx (ix2 j (0 : Fin 1))).toInt.toNat (A - 1), by omega⟩ b) := by
  unfold Host.gather
  congr 1
  funext a
  refine Fin.ext ?_
  match a with
  | ⟨0, _⟩ => exact gather_coord0 wf idx j b
  | ⟨1, _⟩ => exact gather_coord1 wf idx j b

end Cert.ScatterRows

end
-- ==== Proof.LibScatter1.lean ====
/-
  The host's accumulating scatter of scalar updates `[N]` through one-component indices `[N, 1]` into a vector `[A]`,
  read at an entry: the operand's entry plus the sum of the updates whose index, read signed, is that entry's number
  (an update whose index is outside the vector is in no such sum).

  Update `j` has one start, entry `(j, 0)` of the index array read as a signed integer, on the operand's only axis,
  and no window coordinate (the axis is inserted). So it lands on entry `s` exactly when that signed index is `s`.
-/
import proofs.«403720_j39273180954721_3_alg».proof.Proof.LibScatterRows

noncomputable section

open scoped BigOperators

namespace Cert.Scatter1

open Idealize.ShloMosaic Idealize.ShloMosaic.ValueIdx

/-- scalar updates `[N]`, indices `[N, 1]` (index vector on axis 1), operand `[A]` -/
abbrev dims1 (A N : Nat) (wf : ScatterDims.WF ⟨1, ![A]⟩ ⟨2, ![N, 1]⟩ ⟨1, ![N]⟩ [] [0] [0] 1) :
    ScatterDims ⟨1, ![A]⟩ ⟨2, ![N, 1]⟩ ⟨1, ![N]⟩ := ⟨[], [0], [0], 1, wf⟩

section One
variable {A N w : Nat} (wf : ScatterDims.WF ⟨1, ![A]⟩ ⟨2, ![N, 1]⟩ ⟨1, ![N]⟩ [] [0] [0] 1)

/-- Update `j` reads its one start component at position `(j, 0)` of the index array. -/
theorem one_siIdx (j : Fin N) (c : Fin (dims1 A N wf).scatterDimsToOperandDims.length) :
    (dims1 A N wf).siIdx (ix1 j) c = ix2 j (0 : Fin 1) := by
  funext k; refine Fin.ext ?_
  match k with
  | ⟨0, _⟩ => rfl
  | ⟨1, _⟩ =>
    show c.val = 0
    have : c.val < 1 := c.isLt
    omega

/-- On the operand's only axis the start is the index, read signed. -/
theorem one_start (idx : IVec ⟨2, ![N, 1]⟩ w) (j : Fin N) (a : Fin 1) :
    (dims1 A N wf).start (ix1 j) idx a = (idx (ix2 j (0 : Fin 1))).toInt := by
  obtain rfl : a = 0 := Subsingleton.elim _ _
  unfold ScatterDims.start
  rw [dif_pos (show (0 : Fin 1) ∈ (dims1 A N wf).scatterDimsToOperandDims from List.mem_cons_self)]
  rw [one_siIdx]

/-- The operand's only axis is inserted: a scalar update has no window coordinate. -/
theorem one_window (j : (⟨1, ![N]⟩ : Shape).Idx) (a : Fin 1) : (dims1 A N wf).window j a = 0 := by
  unfold ScatterDims.window
  rw [dif_neg (show a ∉ (dims1 A N wf).sKept from by
    have : (dims1 A N wf).sKept = [] := rfl
    rw [this]; exact List.not_mem_nil)]

/-- Update `j` lands on entry `s` exactly when its index, read signed, is `s`. -/
theorem one_resultIdx?_iff (idx : IVec ⟨2, ![N, 1]⟩ w) (j : Fin N) (s : Fin A) :
    (dims1 A N wf).resultIdx? (ix1 j) idx = some (ix1 s)
      ↔ (idx (ix2 j (0 : Fin 1))).toInt = (s.val : Int) := by
  rw [Cert.ScatterRows.resultIdx?_eq_some_iff, Fin.forall_fin_one, one_start, one_window]
  simp only [Nat.cast_zero, add_zero]

end One

/-- THE ONE-AXIS SCATTER READ AT `s`: the operand's entry plus the sum of the updates whose index, read signed, is
    `s`; an update whose index is negative or past the vector's end is in no such sum. -/
theorem scatterAdd_1d_apply {A N w : Nat} {φ : FTy} (wf : ScatterDims.WF ⟨1, ![A]⟩ ⟨2, ![N, 1]⟩ ⟨1, ![N]⟩ [] [0] [0] 1)
    (x : FVec Ideal ⟨1, ![A]⟩ φ) (idx : IVec ⟨2, ![N, 1]⟩ w) (upd : FVec Ideal ⟨1, ![N]⟩ φ) (s : Fin A) :
    Host.scatterAdd (dims1 A N wf) x idx upd (ix1 s)
      = x (ix1 s) + ∑ j ∈ Finset.univ.filter (fun j : Fin N => (idx (ix2 j (0 : Fin 1))).toInt = (s.val : Int)), upd (ix1 j) := by
  show Ideal.hostScatterAdd (dims1 A N wf) x idx upd (ix1 s) = _
  unfold Ideal.hostScatterAdd
  congr 1
  refine Finset.sum_equiv Cert.ScatterRows.idxEquiv1 ?_ ?_
  · intro j'
    obtain ⟨j, rfl⟩ : ∃ j, j' = ix1 j := ⟨j' 0, eq_ix1 j'⟩
    simp only [Finset.mem_filter, Finset.mem_univ, true_and]
    exact one_resultIdx?_iff wf idx j s
  · intro j' _
    exact congrArg upd (eq_ix1 j')

end Cert.Scatter1

end
-- ==== Proof.RefSeg.lean ====
/- The reference's three scatters read at cell (b, p): under the range condition each is the masked sum over row b's
   pixels whose id is p. -/
import proofs.«403720_j39273180954721_3_alg».proof.Proof.RefRead
import proofs.«403720_j39273180954721_3_alg».proof.Proof.Spec
import proofs.«403720_j39273180954721_3_alg».proof.Proof.LibScatter1

noncomputable section

open scoped BigOperators

namespace Cert.RefSeg

open Idealize.ShloMosaic Idealize.ShloMosaic.ValueIdx Cert.ReferenceIdeal Cert.ReferenceIdeal.Read

/-! ## Words -/

/-- The inequality compare of two words, as a bit. -/
theorem cmpi_ne_val {w : Nat} (x y : BitVec w) : IntOp.cmpi .ne x y = if x = y then 0#1 else 1#1 := by
  unfold IntOp.cmpi
  by_cases h : x = y
  · subst h; simp
  · rw [if_neg h]
    have hb : (x != y) = true := by rw [bne_iff_ne]; exact h
    rw [hb]; rfl

/-- A word below 2³¹ reads the same signed and unsigned. -/
theorem toInt_small {a : BitVec 32} (ha : a.toNat < 2 ^ 31) : a.toInt = (a.toNat : Int) := by
  rw [BitVec.toInt_eq_msb_cond, BitVec.msb_eq_false_iff_two_mul_lt.mpr (by omega)]
  simp

/-- The segment word of a pixel with id `v` in row `b'`: the id if it is not the ignore value, else zero, plus
    `128 · b'`. -/
def segw (v : BitVec 32) (b' : Nat) : BitVec 32 :=
  IntOp.addi (Scalar.select (IntOp.cmpi .ne v 4294966297#32) v 0#32) (IntOp.muli (BitVec.ofNat 32 b') 128#32)

/-- An ignored pixel of row `b'` has segment `128 · b'` (nothing wraps: `128 · b' < 4096`). -/
theorem segw_ignore (b' : Nat) (hb : b' < 32) : (segw 4294966297#32 b').toInt = ((128 * b' : Nat) : Int) := by
  unfold segw
  rw [cmpi_ne_val, if_pos rfl]
  unfold Scalar.select IntOp.addi IntOp.muli
  rw [if_neg (by decide)]
  rw [toInt_small]
  · rw [BitVec.toNat_add, BitVec.toNat_mul, BitVec.toNat_ofNat, BitVec.toNat_ofNat, BitVec.toNat_ofNat]
    congr 1
    omega
  · rw [BitVec.toNat_add, BitVec.toNat_mul, BitVec.toNat_ofNat, BitVec.toNat_ofNat, BitVec.toNat_ofNat]
    omega

/-- A bin number below 128 is not the ignore value. -/
theorem bin_ne_ignore (p : Nat) (hp : p < 128) : BitVec.ofNat 32 p ≠ 4294966297#32 := by
  intro h
  have := congrArg BitVec.toNat h
  rw [BitVec.toNat_ofNat, BitVec.toNat_ofNat] at this
  omega

/-- Bin numbers below 128 are distinct words. -/
theorem bin_inj (p p' : Nat) (hp : p < 128) (hp' : p' < 128) (h : BitVec.ofNat 32 p = BitVec.ofNat 32 p') : p = p' := by
  have := congrArg BitVec.toNat h
  rw [BitVec.toNat_ofNat, BitVec.toNat_ofNat] at this
  omega

/-- A pixel of row `b'` with bin `p` has segment `128 · b' + p` (nothing wraps: it is below 4096). -/
theorem segw_bin (p b' : Nat) (hp : p < 128) (hb : b' < 32) :
    (segw (BitVec.ofNat 32 p) b').toInt = ((128 * b' + p : Nat) : Int) := by
  unfold segw
  rw [cmpi_ne_val, if_neg (bin_ne_ignore p hp)]
  unfold Scalar.select IntOp.addi IntOp.muli
  rw [if_pos (by decide)]
  rw [toInt_small]
  · rw [BitVec.toNat_add, BitVec.toNat_mul, BitVec.toNat_ofNat, BitVec.toNat_ofNat, BitVec.toNat_ofNat]
    congr 1
    omega
  · rw [BitVec.toNat_add, BitVec.toNat_mul, BitVec.toNat_ofNat, BitVec.toNat_ofNat, BitVec.toNat_ofNat]
    omega

/-! ## The row-major numbering of the pixels -/

/-- Pixel number `k` of the row-major order of the `[32, 1024, 1024]` arrays. -/
def pix (k : Fin 33554432) : S32x1024x1024.Idx :=
  ix3 (⟨k.val / 1048576, by have := k.isLt; omega⟩ : Fin 32) (⟨k.val / 1024 % 1024, by omega⟩ : Fin 1024)
    (⟨k.val % 1024, by omega⟩ : Fin 1024)

/-- The row-major numbering of the pixels as a bijection: `(b, r, q) ↦ (1024 b + r) · 1024 + q`. -/
def flat : Fin 32 × Fin 1024 × Fin 1024 ≃ Fin 33554432 where
  toFun t := ⟨(t.1.val * 1024 + t.2.1.val) * 1024 + t.2.2.val, by
    have := t.1.isLt; have := t.2.1.isLt; have := t.2.2.isLt; omega⟩
  invFun k := (⟨k.val / 1048576, by have := k.isLt; omega⟩, ⟨k.val / 1024 % 1024, by omega⟩, ⟨k.val % 1024, by omega⟩)
  left_inv t := by
    obtain ⟨b, r, q⟩ := t
    have := b.isLt; have := r.isLt; have := q.isLt
    refine Prod.ext (Fin.ext ?_) (Prod.ext (Fin.ext ?_) (Fin.ext ?_))
    · show ((b.val * 1024 + r.val) * 1024 + q.val) / 1048576 = b.val
      omega
    · show ((b.val * 1024 + r.val) * 1024 + q.val) / 1024 % 1024 = r.val
      omega
    · show ((b.val * 1024 + r.val) * 1024 + q.val) % 1024 = q.val
      omega
  right_inv k := by
    refine Fin.ext ?_
    have := k.isLt
    show (k.val / 1048576 * 1024 + k.val / 1024 % 1024) * 1024 + k.val % 1024 = k.val
    omega

/-- Pixel number `(1024 b + r) · 1024 + q` is pixel `(b, r, q)`. -/
theorem pix_flat (b : Fin 32) (r q : Fin 1024) : pix (flat (b, r, q)) = ix3 b r q := by
  have := b.isLt; have := r.isLt; have := q.isLt
  funext a
  refine Fin.ext ?_
  match a with
  | ⟨0, _⟩ =>
    show ((b.val * 1024 + r.val) * 1024 + q.val) / 1048576 = b.val
    omega
  | ⟨1, _⟩ =>
    show ((b.val * 1024 + r.val) * 1024 + q.val) / 1024 % 1024 = r.val
    omega
  | ⟨2, _⟩ =>
    show ((b.val * 1024 + r.val) * 1024 + q.val) % 1024 = q.val
    omega

/-- Its row is `b`. -/
theorem flat_row (b : Fin 32) (r q : Fin 1024) : (flat (b, r, q)).val / 1048576 = b.val := by
  have := b.isLt; have := r.isLt; have := q.isLt
  show ((b.val * 1024 + r.val) * 1024 + q.val) / 1048576 = b.val
  omega

/-- A sum over the flat positions is the triple sum over rows, lines and columns. -/
theorem sum_flat (G : Fin 33554432 → EReal) :
    ∑ k, G k = ∑ b : Fin 32, ∑ r : Fin 1024, ∑ q : Fin 1024, G (flat (b, r, q)) := by
  rw [← Equiv.sum_comp flat G, Fintype.sum_prod_type]
  refine Finset.sum_congr rfl fun b _ => ?_
  rw [Fintype.sum_prod_type]

/-! ## The scatter's operands at a flat position -/

/-- The pixel a flat position reads through the two reshapes. -/
theorem idx_pix (k : Fin 33554432) : idx_main_v0 (idx_main_v12 (ix1 k)) = pix k := by
  have := k.isLt
  funext a
  refine Fin.ext ?_
  match a with
  | ⟨0, _⟩ =>
    show (k.val / 1048576 * 1048576 + k.val % 1048576) / 1048576 = k.val / 1048576
    omega
  | ⟨1, _⟩ =>
    show (k.val / 1048576 * 1048576 + k.val % 1048576) / 1024 % 1024 = k.val / 1024 % 1024
    omega
  | ⟨2, _⟩ =>
    show (k.val / 1048576 * 1048576 + k.val % 1048576) % 1024 = k.val % 1024
    omega

/-- The index array at position `k` is the segment word of pixel `k`. -/
theorem idxv_apply (x2 : IVec S32x1024x1024 32) (k : Fin 33554432) :
    val_main_v16 (F := Ideal) x2 (ix2 k (0 : Fin 1)) = segw (x2 (pix k)) (k.val / 1048576) := by
  rw [val_main_v16_apply]
  rw [show idx_main_v16 (ix2 k (0 : Fin 1)) = ix1 k from by funext a; match a with | ⟨0, _⟩ => rfl]
  rw [val_main_v12_apply, val_main_v11_apply, val_main_v5_apply, val_main_v4_apply, val_main_v0_apply,
    val_main_v3_apply, val_main_c_apply, val_main_call0_v1_apply, val_main_call0_v0_apply, val_main_c_0_apply,
    val_main_v10_apply, val_main_v9_apply, val_main_v8_apply, val_main_v6_apply, val_main_v7_apply,
    val_main_c_1_apply, idx_pix]
  rfl

/-- The masked-value updates at position `k`: zero at an ignored pixel, the array's value elsewhere. -/
theorem upd_val_apply (x0 : FVec Ideal S32x1024x1024 .f32) (x2 : IVec S32x1024x1024 32) (k : Fin 33554432) :
    val_main_v14 (F := Ideal) x0 x2 (ix1 k) = if x2 (pix k) = 4294966297#32 then 0 else x0 (pix k) := by
  rw [val_main_v14_apply, val_main_v13_apply, val_main_v4_apply, val_main_v0_apply, val_main_v1_apply,
    val_main_v3_apply, val_main_c_apply, val_main_call1_v1_apply, val_main_call1_v0_apply, val_main_cst_apply]
  have e1 : idx_main_v0 (idx_main_v14 (ix1 k)) = pix k := idx_pix k
  have e2 : idx_main_v1 (idx_main_v14 (ix1 k)) = pix k := idx_pix k
  rw [e1, e2, cmpi_ne_val]
  by_cases hv : x2 (pix k) = 4294966297#32
  · rw [if_pos hv, if_pos hv]
    unfold Scalar.select
    rw [if_neg (by decide)]
    exact Ideal.ofBits_zero_f32
  · rw [if_neg hv, if_neg hv]
    unfold Scalar.select
    rw [if_pos (by decide)]

/-- The count updates at position `k`: zero at an ignored pixel, one elsewhere. -/
theorem upd_cnt_apply (x2 : IVec S32x1024x1024 32) (k : Fin 33554432) :
    val_main_v24 (F := Ideal) x2 (ix1 k) = if x2 (pix k) = 4294966297#32 then 0 else (1 : EReal) := by
  rw [val_main_v24_apply, val_main_v23_apply, val_main_v4_apply, val_main_v0_apply,
    val_main_v3_apply, val_main_c_apply]
  have e1 : idx_main_v0 (idx_main_v24 (ix1 k)) = pix k := idx_pix k
  rw [e1, cmpi_ne_val]
  by_cases hv : x2 (pix k) = 4294966297#32
  · rw [if_pos hv, if_pos hv]
    show (((BitVec.toNat (0#1) : ℕ) : ℝ) : EReal) = 0
    rw [show BitVec.toNat (0#1) = 0 from rfl, Nat.cast_zero, EReal.coe_zero]
  · rw [if_neg hv, if_neg hv]
    show (((BitVec.toNat (1#1) : ℕ) : ℝ) : EReal) = 1
    rw [show BitVec.toNat (1#1) = 1 from rfl, Nat.cast_one, EReal.coe_one]

/-- The zero operand. -/
theorem zero_apply (i : S4096.Idx) : val_main_v15 (F := Ideal) i = 0 := by
  rw [val_main_v15_apply, val_main_cst_2_apply]
  exact Ideal.ofBits_zero_f32

/-! ## One scatter read at a cell -/

/-- Position `k`'s share of cell `(b, p)`: its update counts when its segment word is `128 b + p`, which under the
    range condition says its row is `b` and its id is `p` (an ignored pixel of row `b` lands on cell `(b, 0)` with
    update zero). -/
theorem term_eq (x2 : IVec S32x1024x1024 32) (h : Cert.Spec.InRange x2) (g : S32x1024x1024.Idx → EReal)
    (b : Fin 32) (p : Fin 128) (k : Fin 33554432) :
    (if (segw (x2 (pix k)) (k.val / 1048576)).toInt = ((128 * b.val + p.val : Nat) : Int)
      then (if x2 (pix k) = 4294966297#32 then (0 : EReal) else g (pix k)) else 0)
    = if k.val / 1048576 = b.val ∧ x2 (pix k) = BitVec.ofNat 32 p.val then g (pix k) else 0 := by
  have hk : k.val / 1048576 < 32 := by have := k.isLt; omega
  have hp := p.isLt
  have hb := b.isLt
  rcases h (pix k) with hi | ⟨p', hp'⟩
  · rw [hi, if_pos rfl, ite_self, if_neg]
    rintro ⟨_, h2⟩
    exact bin_ne_ignore p.val hp h2.symm
  · have hp'l := p'.isLt
    rw [hp', segw_bin _ _ hp'l hk, if_neg (bin_ne_ignore p'.val hp'l)]
    by_cases hc : k.val / 1048576 = b.val ∧ p'.val = p.val
    · obtain ⟨h1, h2⟩ := hc
      rw [if_pos (by rw [h1, h2]), if_pos ⟨h1, by rw [h2]⟩]
    · rw [if_neg, if_neg]
      · rintro ⟨h1, h2⟩
        exact hc ⟨h1, bin_inj _ _ hp'l hp h2⟩
      · intro h3
        apply hc
        have h4 : 128 * (k.val / 1048576) + p'.val = 128 * b.val + p.val := by exact_mod_cast h3
        omega

/-- A scatter into zeros through the segment words, of updates that vanish at ignored pixels and are `g` elsewhere,
    read at cell `(b, p)`: the sum of `g` over row `b`'s pixels whose id is `p`. -/
theorem scat_cell (x2 : IVec S32x1024x1024 32) (h : Cert.Spec.InRange x2) (g : S32x1024x1024.Idx → EReal)
    (zero : FVec Ideal S4096 .f32) (hz : ∀ i, zero i = 0)
    (idx : IVec S33554432x1 32)
    (hidx : ∀ k : Fin 33554432, idx (ix2 k (0 : Fin 1)) = segw (x2 (pix k)) (k.val / 1048576))
    (upd : FVec Ideal S33554432 .f32)
    (hupd : ∀ k : Fin 33554432, upd (ix1 k) = if x2 (pix k) = 4294966297#32 then 0 else g (pix k))
    (b : Fin 32) (p : Fin 128) :
    Host.scatterAdd scatter_S4096_S33554432x1_S33554432_n_0_0_1 zero idx upd (Cert.Spec.cell b p)
      = Cert.Spec.seg g x2 b p := by
  unfold Cert.Spec.cell Cert.Spec.seg
  refine (Cert.Scatter1.scatterAdd_1d_apply (φ := .f32) Facts₀.scatter_S4096_S33554432x1_S33554432_n_0_0_1_wf
    zero idx upd _).trans ?_
  rw [hz, zero_add, Finset.sum_filter, sum_flat, Finset.sum_eq_single b]
  · refine Finset.sum_congr rfl fun r _ => Finset.sum_congr rfl fun q _ => ?_
    rw [hidx, hupd]
    refine (term_eq x2 h g b p _).trans ?_
    rw [pix_flat, flat_row, if_congr (and_iff_right rfl) rfl rfl]
  · intro b' _ hne
    refine Finset.sum_eq_zero fun r _ => Finset.sum_eq_zero fun q _ => ?_
    rw [hidx, hupd]
    refine (term_eq x2 h g b p _).trans ?_
    rw [flat_row, if_neg]
    exact fun hh => hne (Fin.ext hh.1)
  · intro hb
    exact absurd (Finset.mem_univ b) hb

/-! ## The three scatters -/

theorem sp_eq (x0 : FVec Ideal S32x1024x1024 .f32) (x2 : IVec S32x1024x1024 32) (h : Cert.Spec.InRange x2)
    (b : Fin 32) (p : Fin 128) :
    val_main_v17 (F := Ideal) x0 x2 (Cert.Spec.cell b p) = Cert.Spec.seg x0 x2 b p := by
  unfold val_main_v17
  exact scat_cell x2 h x0 _ zero_apply _ (idxv_apply x2) _ (upd_val_apply x0 x2) b p

theorem st_eq (x1 : FVec Ideal S32x1024x1024 .f32) (x2 : IVec S32x1024x1024 32) (h : Cert.Spec.InRange x2)
    (b : Fin 32) (p : Fin 128) :
    val_main_v22 (F := Ideal) x1 x2 (Cert.Spec.cell b p) = Cert.Spec.seg x1 x2 b p := by
  unfold val_main_v22
  exact scat_cell x2 h x1 _ zero_apply _ (idxv_apply x2) _ (upd_val_apply x1 x2) b p

theorem cnt_eq (x2 : IVec S32x1024x1024 32) (h : Cert.Spec.InRange x2) (b : Fin 32) (p : Fin 128) :
    val_main_v27 (F := Ideal) x2 (Cert.Spec.cell b p) = Cert.Spec.seg (fun _ => (1 : EReal)) x2 b p := by
  unfold val_main_v27
  exact scat_cell x2 h (fun _ => (1 : EReal)) _ zero_apply _ (idxv_apply x2) _ (upd_cnt_apply x2) b p

end Cert.RefSeg

end
-- ==== Proof.RefTail.lean ====
/- The reference's operations after its three scatters, as a function of the scatters' results. -/
import proofs.«403720_j39273180954721_3_alg».proof.Proof.RefRead
import proofs.«403720_j39273180954721_3_alg».proof.Proof.Spec

noncomputable section

open scoped BigOperators

namespace Cert.RefTail

open Idealize.ShloMosaic Idealize.ShloMosaic.ValueIdx Cert.ReferenceIdeal Cert.ReferenceIdeal.Read

/-- The flat numbering s = 128 * b + p is a bijection between the 4096 cell indices and the pairs (row b, bin p);
    its inverse is s ↦ (s / 128, s % 128). -/
def cellEquiv : (⟨1, ![4096]⟩ : Shape).Idx ≃ Fin 32 × Fin 128 where
  toFun i := (⟨(i 0).val / 128, by have h : (i 0).val < 4096 := (i 0).isLt; omega⟩, ⟨(i 0).val % 128, by omega⟩)
  invFun s := Cert.Spec.cell s.1 s.2
  left_inv i := by
    refine Eq.trans ?_ (eq_ix1 i).symm
    show ix1 _ = ix1 _
    congr 1
    apply Fin.ext
    show 128 * ((i 0).val / 128) + (i 0).val % 128 = (i 0).val
    omega
  right_inv s := by
    obtain ⟨b, p⟩ := s
    apply Prod.ext
    · apply Fin.ext
      show (128 * b.val + p.val) / 128 = b.val
      have := p.isLt; omega
    · apply Fin.ext
      show (128 * b.val + p.val) % 128 = p.val
      have := p.isLt; omega

/-- A sum over the 4096 cells is the double sum over rows and bins. -/
theorem sum_cells (g : (⟨1, ![4096]⟩ : Shape).Idx → EReal) :
    ∑ j, g j = ∑ b : Fin 32, ∑ p : Fin 128, g (Cert.Spec.cell b p) := by
  rw [← Equiv.sum_comp cellEquiv.symm g, Fintype.sum_prod_type]
  rfl

/-- The masked squared difference at a cell: the mask is the conjunction of the three comparisons against the
    broadcast constants 0, 0 and -999, the selected value is (sp - st) * (sp - st), the other branch is the constant 0. -/
theorem sq_stage (x0 x1 : FVec Ideal S32x1024x1024 .f32) (x2 : IVec S32x1024x1024 32) (j : S4096.Idx) :
    val_main_v38 (F := Ideal) x0 x1 x2 j
      = Cert.Spec.sqCell (val_main_v17 (F := Ideal) x0 x2 j) (val_main_v22 (F := Ideal) x1 x2 j)
          (val_main_v27 (F := Ideal) x2 j) := by
  rw [val_main_v38_apply, val_main_v35_apply, val_main_v32_apply, val_main_v29_apply, val_main_v31_apply,
    val_main_v34_apply, val_main_v37_apply, val_main_v36_apply, val_main_v28_apply, val_main_v30_apply,
    val_main_v33_apply, val_main_call3_v1_apply, val_main_call3_v0_apply, val_main_cst_6_apply, val_main_cst_7_apply,
    val_main_cst_8_apply, val_main_cst_9_apply]
  rfl

/-- The mask at a cell, converted to a float: one for a kept cell, zero otherwise. -/
theorem keep_stage (x1 : FVec Ideal S32x1024x1024 .f32) (x2 : IVec S32x1024x1024 32) (j : S4096.Idx) :
    val_main_v39 (F := Ideal) x1 x2 j
      = Cert.Spec.keepCell (val_main_v22 (F := Ideal) x1 x2 j) (val_main_v27 (F := Ideal) x2 j) := by
  rw [val_main_v39_apply, val_main_v35_apply, val_main_v32_apply, val_main_v29_apply, val_main_v31_apply,
    val_main_v34_apply, val_main_v28_apply, val_main_v30_apply, val_main_v33_apply, val_main_cst_6_apply,
    val_main_cst_7_apply, val_main_cst_8_apply]
  rfl

/-- The sum of the masked squared differences, from the zero it starts at, is the total over rows and bins. -/
theorem sq_total (x0 x1 : FVec Ideal S32x1024x1024 .f32) (x2 : IVec S32x1024x1024 32) (i : S_.Idx) :
    val_main_v42 (F := Ideal) x0 x1 x2 i
      = Cert.Spec.total fun b p => Cert.Spec.sqCell (val_main_v17 (F := Ideal) x0 x2 (Cert.Spec.cell b p))
          (val_main_v22 (F := Ideal) x1 x2 (Cert.Spec.cell b p)) (val_main_v27 (F := Ideal) x2 (Cert.Spec.cell b p)) := by
  rw [val_main_v42_apply, val_main_cst_12_apply, sum_cells]
  simp only [sq_stage]
  rfl

/-- The number of kept cells, from the zero it starts at, is the total of the converted masks over rows and bins. -/
theorem keep_total (x1 : FVec Ideal S32x1024x1024 .f32) (x2 : IVec S32x1024x1024 32) (i : S_.Idx) :
    val_main_v40 (F := Ideal) x1 x2 i
      = Cert.Spec.total fun b p => Cert.Spec.keepCell (val_main_v22 (F := Ideal) x1 x2 (Cert.Spec.cell b p))
          (val_main_v27 (F := Ideal) x2 (Cert.Spec.cell b p)) := by
  rw [val_main_v40_apply, val_main_cst_10_apply, sum_cells]
  simp only [keep_stage]
  rfl

theorem ref_result (x0 x1 : FVec Ideal S32x1024x1024 .f32) (x2 : IVec S32x1024x1024 32) :
    val_main_v45 (F := Ideal) x0 x1 x2
      = Cert.Spec.result (fun b p => val_main_v17 (F := Ideal) x0 x2 (Cert.Spec.cell b p))
          (fun b p => val_main_v22 (F := Ideal) x1 x2 (Cert.Spec.cell b p))
          (fun b p => val_main_v27 (F := Ideal) x2 (Cert.Spec.cell b p)) := by
  funext i
  rw [val_main_v45_apply, val_main_v44_apply, val_main_v43_apply, val_main_v41_apply, sq_total, keep_total]
  rfl

end Cert.RefTail

end
-- ==== Proof.PreDecode.lean ====
/- The printed precondition, read: when it is all ones, every plot id is the ignore value or a bin number. -/
import proofs.«403720_j39273180954721_3_alg».proof.Proof.Gen.Pre_finite_inputs
import proofs.«403720_j39273180954721_3_alg».proof.Proof.Spec
import Idealize.ShloMosaic.Lib.ReduceAll
import Idealize.ShloMosaic.Lib.StableHlo.Predicate

noncomputable section

open scoped BigOperators

namespace Cert.PreDecode

open Idealize.ShloMosaic Idealize.ShloMosaic.ValueIdx

/-- The scalar shape has one index. -/
instance subsingleton_S_Idx : Subsingleton Cert.Pre_finite_inputs.S_.Idx :=
  ⟨fun a b => funext fun d => d.elim0⟩

/-- One element's test read back: a word that equals the ignore value, or lies in [0, 128) read signed, is the ignore
    value or the word of a bin number.  A word in [0, 128) signed has its top bit clear, so it reads the same
    unsigned, and is the word of its own value. -/
theorem word_decode (w : BitVec 32)
    (h : IntOp.ori (IntOp.cmpi .eq w 4294966297#32)
      (IntOp.andi (IntOp.cmpi .sge w 0#32) (IntOp.cmpi .slt w 128#32)) = 1#1) :
    w = 4294966297#32 ∨ ∃ p : Fin 128, w = BitVec.ofNat 32 p.val := by
  rcases IntOp.ori_eq_one.1 h with h | h
  · exact Or.inl (IntOp.cmpi_eq.1 h)
  · obtain ⟨h0, h1⟩ := IntOp.andi_eq_one.1 h
    rw [IntOp.cmpi_sge, show (0#32 : BitVec 32).toInt = 0 from by decide] at h0
    rw [IntOp.cmpi_slt, show (128#32 : BitVec 32).toInt = 128 from by decide] at h1
    have hc := BitVec.toInt_eq_toNat_cond w
    have hw := w.isLt
    have hlt : w.toNat < 128 := by split at hc <;> omega
    exact Or.inr ⟨⟨w.toNat, hlt⟩, ((BitVec.ofNat_toNat 32 w).trans (BitVec.setWidth_eq w)).symm⟩

theorem inRange_of_pre [Cert.Pre_finite_inputs.Facts] (x0 x1 : FVec Ideal Cert.Pre_finite_inputs.S32x1024x1024 .f32)
    (x2 : IVec Cert.Pre_finite_inputs.S32x1024x1024 32)
    (h : Cert.Pre_finite_inputs.fn (F := Ideal) x0 x1 x2 = fun _ => 1#1) : Cert.Spec.InRange x2 := by
  intro i
  -- the scalar result at its one index: a conjunction of three reductions
  have e := congrFun h ix0
  dsimp only [Cert.Pre_finite_inputs.fn, Cert.Pre_finite_inputs.fn_part1, andi] at e
  -- keep the third conjunct, the reduction by and of the per-pixel id test
  obtain ⟨-, e3⟩ := IntOp.andi_eq_one.1 e
  -- every element that reduces into the scalar is one
  have ei := Host.reduce_andi_all _ _ _ _ ix0 e3 i
  -- the element test at pixel i, with each broadcast constant read at i
  simp only [ori, andi, cmpi, constantI, StableHlo.Predicate.bcast_scalar] at ei
  exact word_decode (x2 i) ei

end Cert.PreDecode

end
-- ==== Proof.lean ====
/-
  The certificate's claim: the kernel and its reference compute one number.

  The kernel buckets every pixel of a [32, 1024, 1024] image stack by its row and its plot id (one of 128 bins): for
  every (row, bin) it sums the predictions, the targets and the constant one over the row's pixels whose id is the bin,
  by a one-hot product accumulated tile by tile and chunk by chunk.  The reference does the same with three scatter-adds
  into 32 · 128 segments numbered 128 · row + id, an ignored pixel (id -999) sent to the row's first segment with
  weight zero.  Both then apply one tail to the three per-cell sums (`Spec.result`).  The two bucketings agree when
  every id is the ignore value or a bin number: an id outside that range is dropped by the kernel's one-hot but lands
  in another row's segment in the reference, so the range is part of the precondition.

  Frames: the kernel's (at both instances) are the generated frame runs; the reference's is its run with the result
  dropped.  The ideal pass rewrote nothing.  For the value claim the kernel's run ends at `Spec.result` of the three
  masked sums (Proof/KValue.lean, for any ids), the reference's at `Spec.result` of its three scatters read at the
  cells (Proof/RefTail.lean), and under the range condition read off the precondition (Proof/PreDecode.lean) each
  scatter at a cell is the masked sum (Proof/RefSeg.lean).
-/
import proofs.«403720_j39273180954721_3_alg».proof.Defs
import proofs.«403720_j39273180954721_3_alg».proof.Proof.Gen.Kernel
import proofs.«403720_j39273180954721_3_alg».proof.Proof.Gen.Kernel.Frame
import proofs.«403720_j39273180954721_3_alg».proof.Proof.Gen.KernelIdeal
import proofs.«403720_j39273180954721_3_alg».proof.Proof.Gen.KernelIdeal.Frame
import proofs.«403720_j39273180954721_3_alg».proof.Proof.Gen.ReferenceIdeal
import proofs.«403720_j39273180954721_3_alg».proof.Proof.Gen.Pre_finite_inputs
import proofs.«403720_j39273180954721_3_alg».proof.Proof.RefRun
import proofs.«403720_j39273180954721_3_alg».proof.Proof.RefRead
import proofs.«403720_j39273180954721_3_alg».proof.Proof.Spec
import proofs.«403720_j39273180954721_3_alg».proof.Proof.KValue
import proofs.«403720_j39273180954721_3_alg».proof.Proof.RefSeg
import proofs.«403720_j39273180954721_3_alg».proof.Proof.RefTail
import proofs.«403720_j39273180954721_3_alg».proof.Proof.PreDecode
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The two runs end at one value: the kernel's at `Spec.result` of the masked sums of its arguments, the reference's
    at `Spec.result` of its scatters, which are those masked sums because the ids are in range. -/
theorem algebraic : Cert.algebraic_KernelIdeal_ReferenceIdeal := by
  intro m ρ m' ρ' hpre hagree
  refine ⟨_, Cert.KernelIdeal.Hand.krun m ρ, ?_⟩
  refine (θ_run Cert.ReferenceIdeal.defs _ _).mono (fun _ h c => ⟨(h c).1.trans ?_, (h c).2⟩)
    (Cert.ReferenceIdeal.Value.run (F := Ideal) m' ρ')
  have hr : Cert.Spec.InRange (m ((c.tc : Thread Cert.KernelIdeal.nD Cert.KernelIdeal.τ).loc Cert.KernelIdeal.main_arg2)) :=
    Cert.PreDecode.inRange_of_pre _ _ _ (hpre c)
  have e1 : ∀ (x0 : FVec Ideal Cert.ReferenceIdeal.S32x1024x1024 .f32) (x2 : IVec Cert.ReferenceIdeal.S32x1024x1024 32),
      Cert.Spec.InRange x2 →
      (fun b p => Cert.ReferenceIdeal.Read.val_main_v17 (F := Ideal) x0 x2 (Cert.Spec.cell b p)) = Cert.Spec.seg x0 x2 :=
    fun x0 x2 h => funext fun b => funext fun p => Cert.RefSeg.sp_eq x0 x2 h b p
  have e2 : ∀ (x1 : FVec Ideal Cert.ReferenceIdeal.S32x1024x1024 .f32) (x2 : IVec Cert.ReferenceIdeal.S32x1024x1024 32),
      Cert.Spec.InRange x2 →
      (fun b p => Cert.ReferenceIdeal.Read.val_main_v22 (F := Ideal) x1 x2 (Cert.Spec.cell b p)) = Cert.Spec.seg x1 x2 :=
    fun x1 x2 h => funext fun b => funext fun p => Cert.RefSeg.st_eq x1 x2 h b p
  have e3 : ∀ (x2 : IVec Cert.ReferenceIdeal.S32x1024x1024 32), Cert.Spec.InRange x2 →
      (fun b p => Cert.ReferenceIdeal.Read.val_main_v27 (F := Ideal) x2 (Cert.Spec.cell b p))
        = Cert.Spec.seg (fun _ => (1 : EReal)) x2 :=
    fun x2 h => funext fun b => funext fun p => Cert.RefSeg.cnt_eq x2 h b p
  rw [Cert.ReferenceIdeal.Read.val_main_v45_eq, Cert.RefTail.ref_result, (hagree c).1, (hagree c).2.1, (hagree c).2.2,
    e1 _ _ hr, e2 _ _ hr, e3 _ hr]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
